-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S2000000x10 : Shape := ⟨2, ![2000000, 10]⟩
abbrev S64 : Shape := ⟨1, ![64]⟩
abbrev S10 : Shape := ⟨1, ![10]⟩
abbrev S1 : Shape := ⟨1, ![1]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel
  bcast_S_S2000000x10 : S_.BroadcastsInDim S2000000x10 (![] : Fin 0 → Fin S2000000x10.rank)
  reducesTo_S2000000x10_S_d0_1 : S2000000x10.ReducesTo [0, 1] S_
  bcast_S_S64 : S_.BroadcastsInDim S64 (![] : Fin 0 → Fin S64.rank)
  reducesTo_S64_S_d0 : S64.ReducesTo [0] S_
  bcast_S_S10 : S_.BroadcastsInDim S10 (![] : Fin 0 → Fin S10.rank)
  reducesTo_S10_S_d0 : S10.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2000000x64 .f32) (main_arg1 : FVec F S2000000x10 .f32) (main_arg2 : FVec F S64 .f32) (main_arg3 : FVec F S10 .f32) (main_arg4 : FVec F S1 .f32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_v4 : FVec F S2000000x10 .f32 := Host.absf main_arg1
  let main_cst_0 : FVec F S_ .f32 := constant S_ .f32 0x7F800000#32
  let main_v5 : FVec F S2000000x10 .f32 := broadcastInDim S2000000x10 ![] bcast_S_S2000000x10 main_cst_0
  let main_v6 : IVec S2000000x10 1 := cmpf .olt main_v4 main_v5
  let main_c_1 : IVec S_ 1 := constantI S_ 1 1#1
  let main_v7 : IVec S_ 1 := (fun x v => Host.reduce IntOp.andi x v reducesTo_S2000000x10_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_v13 main_v16
-- ==== Kernel.lean ====
abbrev S2000000x64 : Shape := ⟨2, ![2000000, 64]⟩
abbrev S2000000x10 : Shape := ⟨2, ![2000000, 10]⟩
abbrev S64 : Shape := ⟨1, ![64]⟩
abbrev S10 : Shape := ⟨1, ![10]⟩
abbrev S1 : Shape := ⟨1, ![1]⟩
abbrev S1x64 : Shape := ⟨2, ![1, 64]⟩
abbrev S1x10 : Shape := ⟨2, ![1, 10]⟩
abbrev S1x1 : Shape := ⟨2, ![1, 1]⟩
abbrev S25000x64 : Shape := ⟨2, ![25000, 64]⟩
abbrev S25000 : Shape := ⟨1, ![25000]⟩
abbrev S25000x1 : Shape := ⟨2, ![25000, 1]⟩
abbrev S_ : Shape := ⟨0, ![]⟩
abbrev S2000000x74 : Shape := ⟨2, ![2000000, 74]⟩
abbrev S25000x10 : Shape := ⟨2, ![25000, 10]⟩
abbrev S25000x74 : Shape := ⟨2, ![25000, 74]⟩

abbrev nBuf : Space → Nat
  | .hbm => 30
  | .vmem => 15
  | .smem => 0
  | _ => 0

abbrev bufTy : (tb : Table) → Fin (tcTables nBuf tb) → BufTy
  | .hbm, ⟨0, _⟩ => ⟨S2000000x64, .f32⟩
  | .hbm, ⟨1, _⟩ => ⟨S2000000x10, .f32⟩
  | .hbm, ⟨2, _⟩ => ⟨S64, .f32⟩
  | .hbm, ⟨3, _⟩ => ⟨S10, .f32⟩
  | .hbm, ⟨4, _⟩ => ⟨S1, .f32⟩
  | .hbm, ⟨5, _⟩ => ⟨S1x64, .f32⟩
  | .hbm, ⟨6, _⟩ => ⟨S1x10, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S1x1, .f32⟩
  | .hbm, ⟨29, _⟩ => ⟨S2000000x74, .f32⟩
  | .local _ .vmem, ⟨0, _⟩ => ⟨S1x64, .f32⟩
  | .local _ .vmem, ⟨1, _⟩ => ⟨S25000x64, .f32⟩
  | .local _ .vmem, ⟨2, _⟩ => ⟨S25000x64, .f32⟩
  | .local _ .vmem, ⟨3, _⟩ => ⟨S1x1, .f32⟩
  | .local _ .vmem, ⟨4, _⟩ => ⟨S1x1, .f32⟩
  | .local _ .vmem, ⟨5, _⟩ => ⟨S1x64, .f32⟩
  | .local _ .vmem, ⟨6, _⟩ => ⟨S1x10, .f32⟩
  | .local _ .vmem, ⟨7, _⟩ => ⟨S1x1, .f32⟩
  | .local _ .vmem, ⟨8, _⟩ => ⟨S1x1, .f32⟩
  | .local _ .vmem, ⟨9, _⟩ => ⟨S25000x64, .f32⟩
  | .local _ .vmem, ⟨10, _⟩ => ⟨S25000x64, .f32⟩
  | .local _ .vmem, ⟨11, _⟩ => ⟨S25000x10, .f32⟩
  | .local _ .vmem, ⟨12, _⟩ => ⟨S25000x10, .f32⟩
  | .local _ .vmem, ⟨13, _⟩ => ⟨S25000x74, .f32⟩
  | .local _ .vmem, ⟨14, _⟩ => ⟨S25000x74, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S25000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S25000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S25000x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S25000x74 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S64_S1x64 : S64.ShapeCasts S1x64
  shapeCasts_S10_S1x10 : S10.ShapeCasts S1x10
  inb_S1x1_S1x1_0_0 : ∀ a, (![0, 0] : Fin 2 → Nat) a + S1x1.size a ≤ S1x1.size a
  h_S1x1 : 0 < S1x1.numel
  inb_S25000x64_S25000x64_0_0 : ∀ a, (![0, 0] : Fin 2 → Nat) a + S25000x64.size a ≤ S25000x64.size a
  h_S25000x64 : 0 < S25000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S25000x64 : S1x64.Broadcasts S25000x64
  reduces_S25000x64_S25000 : S25000x64.Reduces [1] S25000
  shapeCasts_S25000_S25000x1 : S25000.ShapeCasts S25000x1
  reduces_S25000x1_S1 : S25000x1.Reduces [0] S1
  shapeCasts_S1_S1x1 : S1.ShapeCasts S1x1
  shapeCasts_S1x1_S1x1 : S1x1.ShapeCasts S1x1
  broadcasts_S1x1_S25000x1 : S1x1.Broadcasts S25000x1
  shapeCasts_S1x1_S_ : S1x1.ShapeCasts S_
  shapeCasts_S1_S_ : S1.ShapeCasts S_
  shapeCasts_S_S1x1 : S_.ShapeCasts S1x1
  inb_S25000x10_S25000x10_0_0 : ∀ a, (![0, 0] : Fin 2 → Nat) a + S25000x10.size a ≤ S25000x10.size a
  h_S25000x10 : 0 < S25000x10.numel
  inpos_S1x1_p0_0 : ∀ a, (![0, 0] : Fin 2 → Nat) a < S1x1.size a
  broadcasts_S25000x1_S25000x64 : S25000x1.Broadcasts S25000x64
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S25000x10 : S1x10.Broadcasts S25000x10
  broadcasts_S25000x1_S25000x10 : S25000x1.Broadcasts S25000x10
  inb_S25000x74_S25000x64_0_0 : ∀ a, (![0, 0] : Fin 2 → Nat) a + S25000x64.size a ≤ S25000x74.size a
  inb_S25000x74_S25000x10_0_64 : ∀ a, (![0, 64] : Fin 2 → Nat) a + S25000x10.size a ≤ S25000x74.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64.size a ≤ S1x64.size a
  hwx0_0 : ∀ i : grid0.Coords, EltTy.bits .f32 = 32 ∨ (Rect.block (s := S1x64) S1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25000x64.size a ≤ S2000000x64.size a
  hwx0_1 : ∀ i : grid0.Coords, EltTy.bits .f32 = 32 ∨ (Rect.block (s := S2000000x64) S25000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x64.size a ≤ S1x64.size a
  hwx1_0 : ∀ i : grid1.Coords, EltTy.bits .f32 = 32 ∨ (Rect.block (s := S1x64) S1x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x10.size a ≤ S1x10.size a
  hwx1_1 : ∀ i : grid1.Coords, EltTy.bits .f32 = 32 ∨ (Rect.block (s := S1x10) S1x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S25000x64.size a ≤ S2000000x64.size a
  hwx1_4 : ∀ i : grid1.Coords, EltTy.bits .f32 = 32 ∨ (Rect.block (s := S2000000x64) S25000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S25000x10.size a ≤ S2000000x10.size a
  hwx1_5 : ∀ i : grid1.Coords, EltTy.bits .f32 = 32 ∨ (Rect.block (s := S2000000x10) S25000x10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S25000x74.size a ≤ S2000000x74.size a
  hwx1_6 : ∀ i : grid1.Coords, EltTy.bits .f32 = 32 ∨ (Rect.block (s := S2000000x74) S25000x74.size (cc1_transform_6 i) (hinb1_6 i)).WholeWords (EltTy.packing .f32)

variable [Facts₀]

abbrev win0_0 : Pipeline.Window sig grid0 :=
  Pipeline.Window.ofSpec (Memref.whole main_v0) S1x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S25000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S25000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S25000x10.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18) S25000x74.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2000000x64 : Shape := ⟨2, ![2000000, 64]⟩
abbrev S2000000x10 : Shape := ⟨2, ![2000000, 10]⟩
abbrev S64 : Shape := ⟨1, ![64]⟩
abbrev S10 : Shape := ⟨1, ![10]⟩
abbrev S1 : Shape := ⟨1, ![1]⟩
abbrev S1x64 : Shape := ⟨2, ![1, 64]⟩
abbrev S_ : Shape := ⟨0, ![]⟩
abbrev S2000000 : Shape := ⟨1, ![2000000]⟩
abbrev S2000000x1 : Shape := ⟨2, ![2000000, 1]⟩
abbrev S1x10 : Shape := ⟨2, ![1, 10]⟩
abbrev S2000000x74 : Shape := ⟨2, ![2000000, 74]⟩

abbrev nBuf : Space → Nat
  | .hbm => 59
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000x10, .f32⟩
  | .hbm, ⟨2, _⟩ => ⟨S64, .f32⟩
  | .hbm, ⟨3, _⟩ => ⟨S10, .f32⟩
  | .hbm, ⟨4, _⟩ => ⟨S1, .f32⟩
  | .hbm, ⟨5, _⟩ => ⟨S1x64, .f32⟩
  | .hbm, ⟨6, _⟩ => ⟨S2000000x64, .f32⟩
  | .hbm, ⟨7, _⟩ => ⟨S2000000x64, .f32⟩
  | .hbm, ⟨8, _⟩ => ⟨S2000000x64, .f32⟩
  | .hbm, ⟨9, _⟩ => ⟨S_, .f32⟩
  | .hbm, ⟨10, _⟩ => ⟨S2000000, .f32⟩
  | .hbm, ⟨11, _⟩ => ⟨S2000000, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i1⟩
  | .hbm, ⟨22, _⟩ => ⟨S2000000, .f32⟩
  | .hbm, ⟨23, _⟩ => ⟨S_, .f32⟩
  | .hbm, ⟨24, _⟩ => ⟨S2000000, .f32⟩
  | .hbm, ⟨25, _⟩ => ⟨S2000000, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S2000000, .f32⟩
  | .hbm, ⟨32, _⟩ => ⟨S2000000, .f32⟩
  | .hbm, ⟨33, _⟩ => ⟨S2000000, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S2000000, .f32⟩
  | .hbm, ⟨38, _⟩ => ⟨S2000000, .f32⟩
  | .hbm, ⟨39, _⟩ => ⟨S_, .f32⟩
  | .hbm, ⟨40, _⟩ => ⟨S2000000, .f32⟩
  | .hbm, ⟨41, _⟩ => ⟨S2000000, .f32⟩
  | .hbm, ⟨42, _⟩ => ⟨S2000000x1, .f32⟩
  | .hbm, ⟨43, _⟩ => ⟨S1x64, .f32⟩
  | .hbm, ⟨44, _⟩ => ⟨S2000000x64, .f32⟩
  | .hbm, ⟨45, _⟩ => ⟨S2000000x64, .f32⟩
  | .hbm, ⟨46, _⟩ => ⟨S2000000x64, .f32⟩
  | .hbm, ⟨47, _⟩ => ⟨S2000000x64, .f32⟩
  | .hbm, ⟨48, _⟩ => ⟨S2000000x64, .f32⟩
  | .hbm, ⟨49, _⟩ => ⟨S2000000x1, .f32⟩
  | .hbm, ⟨50, _⟩ => ⟨S1x10, .f32⟩
  | .hbm, ⟨51, _⟩ => ⟨S2000000x10, .f32⟩
  | .hbm, ⟨52, _⟩ => ⟨S2000000x10, .f32⟩
  | .hbm, ⟨53, _⟩ => ⟨S2000000x10, .f32⟩
  | .hbm, ⟨54, _⟩ => ⟨S2000000x10, .f32⟩
  | .hbm, ⟨55, _⟩ => ⟨S2000000x10, .f32⟩
  | .hbm, ⟨56, _⟩ => ⟨S2000000x64, .f32⟩
  | .hbm, ⟨57, _⟩ => ⟨S2000000x10, .f32⟩
  | .hbm, ⟨58, _⟩ => ⟨S2000000x74, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  reducesTo_S2000000x64_S2000000_d1 : S2000000x64.ReducesTo [1] S2000000
  h_S_ : 0 < S_.numel
  reducesTo_S2000000_S_d0 : S2000000.ReducesTo [0] S_
  shapeCasts_S1_S_ : S1.ShapeCasts S_
  bcast_S_S2000000 : S_.BroadcastsInDim S2000000 (![] : Fin 0 → Fin S2000000.rank)
  bcast_S_S1 : S_.BroadcastsInDim S1 (![] : Fin 0 → Fin S1.rank)
  bcast_S1_S2000000_0 : S1.BroadcastsInDim S2000000 (![0] : Fin 1 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S10_S1x10_1 : S10.BroadcastsInDim S1x10 (![1] : Fin 1 → Fin S1x10.rank)
  bcast_S1x10_S2000000x10_0_1 : S1x10.BroadcastsInDim S2000000x10 (![0, 1] : Fin 2 → Fin S2000000x10.rank)
  bcast_S2000000x1_S2000000x10_0_1 : S2000000x1.BroadcastsInDim S2000000x10 (![0, 1] : Fin 2 → Fin S2000000x10.rank)
  bcast_S_S2000000x64 : S_.BroadcastsInDim S2000000x64 (![] : Fin 0 → Fin S2000000x64.rank)
  bcast_S_S2000000x10 : S_.BroadcastsInDim S2000000x10 (![] : Fin 0 → Fin S2000000x10.rank)
  concatenates_S2000000x64_S2000000x10_S2000000x74_d1 : Shape.Concatenates [S2000000x64, S2000000x10] S2000000x74 1

variable [Facts₀]

class Facts : Prop extends Facts₀ where

variable [Facts]
-- ==== Proof.Terms.lean ====
/-
  The vocabulary both programs are read in.

  A memory of two million rows: addresses `a p k` (64 columns) and contents `mm p k` (10 columns); a query address
  `q` and a query content `qc`; a running error `ge`.  Row `p`'s distance to the query is the Euclidean norm of
  `a p - q`.  Every row is pulled toward the query by a weight proportional to `exp (-distance)`, normalised over all
  rows (a softmin) — unless the smallest distance is at least a threshold computed from `ge`, in which case nothing
  moves.

  Two spellings of that are written out here, entry by entry, each exactly as one program computes it and with every
  float literal left as the word the program prints (nothing is evaluated in this file):

  * the tiled spelling: the rows are read in 80 tiles of 25000; a running maximum of minus the distance and a running
    sum of exponentials are carried from tile to tile (`step`, `stats`), and afterwards each row's weight is
    `exp (least distance - distance)` times ONE scale, which is zero when nothing is to move (`outK`);
  * the whole-array spelling: the least distance is a minimum over all rows, the weights are a softmax of minus the
    distances normalised at their maximum, and a select keeps the old row when nothing is to move (`outR`).
-/
import Idealize.ShloMosaic.PureOps.Ideal

noncomputable section

open scoped BigOperators

namespace Cert.Terms

open Idealize.ShloMosaic

/-! ## The literals, as printed -/

abbrev zeroW : EReal := Ideal.ofBits .f32 0x00000000#32
abbrev oneW : EReal := Ideal.ofBits .f32 0x3F800000#32
abbrev ninfW : EReal := Ideal.ofBits .f32 0xFF800000#32
abbrev pinfW : EReal := Ideal.ofBits .f32 0x7F800000#32
/-- The smoothing factor of the running error. -/
abbrev c1W : EReal := Ideal.ofBits .f32 0x3FFB0775#32
/-- The threshold's coefficient. -/
abbrev c2W : EReal := Ideal.ofBits .f32 0x3F733333#32
/-- The update rate. -/
abbrev emaW : EReal := Ideal.ofBits .f32 0x3CA237C3#32

variable (a : Fin 2000000 → Fin 64 → EReal) (mm : Fin 2000000 → Fin 10 → EReal)
variable (q : Fin 64 → EReal) (qc : Fin 10 → EReal)

/-! ## Distances -/

/-- Row `p`'s distance to the query, the sum of squares taken from nothing. -/
def dist (p : Fin 2000000) : EReal := Ideal.sqrt (∑ k : Fin 64, (a p k - q k) * (a p k - q k))

/-- The same with the sum of squares taken from the zero word. -/
def distZ (p : Fin 2000000) : EReal := Ideal.sqrt (zeroW + ∑ k : Fin 64, (a p k - q k) * (a p k - q k))

/-- Whether nothing is to move: the least distance `d` is at least the threshold, the running error `ge` moved
    toward `d` and scaled. -/
def stay (d ge : EReal) : BitVec 1 := Ideal.cmp .oge d ((ge + c1W * (d - ge)) * c2W)

/-! ## The tiled spelling -/

/-- Lane `r` of tile `t`: zero minus the distance of row `t * 25000 + r` (the bottom element past the last row; no
    tile of the 80 reaches there). -/
def nd (t : ℕ) (r : Fin 25000) : EReal :=
  if h : t * 25000 + r.val < 2000000 then zeroW - dist a q ⟨t * 25000 + r.val, h⟩ else ⊥

/-- One tile: from the running maximum and sum `ml`, the new maximum joins the tile's maximum (taken from the
    minus-infinity word), and the new sum is the old one rescaled to the new maximum plus the tile's sum of
    exponentials. -/
def step (t : ℕ) (ml : EReal × EReal) : EReal × EReal :=
  (max ml.1 ((Finset.univ : Finset (Fin 25000)).fold max ninfW (nd a q t)),
    ml.2 * Ideal.exp (ml.1 - max ml.1 ((Finset.univ : Finset (Fin 25000)).fold max ninfW (nd a q t)))
      + ∑ r : Fin 25000, Ideal.exp (nd a q t r - max ml.1 ((Finset.univ : Finset (Fin 25000)).fold max ninfW (nd a q t))))

/-- The running maximum and sum after tile `n`, started at the minus-infinity word and the zero word. -/
def stats : ℕ → EReal × EReal
  | 0 => step a q 0 (ninfW, zeroW)
  | n + 1 => step a q (n + 1) (stats n)

/-- A row's weight from the least distance `d` and the scale `s`. -/
def wgtK (d s : EReal) (p : Fin 2000000) : EReal := Ideal.exp (d - dist a q p) * s

/-- Entry `(p, j)` of the result, tiled spelling: columns 0 … 63 are the row's address moved toward the query
    address, columns 64 … 73 its content moved toward the query content. -/
def outK (d s : EReal) (p : Fin 2000000) (j : Fin 74) : EReal :=
  if h : j.val < 64 then a p ⟨j.val, h⟩ + wgtK a q d s p * (q ⟨j.val, h⟩ - a p ⟨j.val, h⟩)
  else mm p ⟨j.val - 64, by have := j.isLt; omega⟩
    + wgtK a q d s p * (qc ⟨j.val - 64, by have := j.isLt; omega⟩ - mm p ⟨j.val - 64, by have := j.isLt; omega⟩)

/-- The least distance as the tiled spelling has it: minus the final running maximum. -/
def leastK : EReal := -(stats a q 79).1

/-- The one scale: the update rate, times zero or one, over the final running sum. -/
def scaleK (ge : EReal) : EReal :=
  Ideal.div (emaW * Scalar.select (stay (leastK a q) ge) zeroW oneW) (stats a q 79).2

/-! ## The whole-array spelling -/

/-- The least distance: a minimum over all rows from the plus-infinity word. -/
def leastR : EReal := (Finset.univ : Finset (Fin 2000000)).fold min pinfW (distZ a q)

/-- Minus the distance over the temperature one. -/
def logit (p : Fin 2000000) : EReal := Ideal.div (-(distZ a q p)) oneW

/-- The softmax's shift: the maximum of the logits. -/
def shiftR : EReal := max ninfW ((Finset.univ : Finset (Fin 2000000)).fold max ninfW (logit a q))

/-- The softmax's normaliser. -/
def normR : EReal := zeroW + ∑ p : Fin 2000000, Ideal.exp (logit a q p - shiftR a q)

/-- A row's weight. -/
def wgtR (p : Fin 2000000) : EReal := Ideal.div (Ideal.exp (logit a q p - shiftR a q)) (normR a q) * emaW

/-- Entry `(p, j)` of the result, whole-array spelling. -/
def outR (ge : EReal) (p : Fin 2000000) (j : Fin 74) : EReal :=
  if h : j.val < 64 then
    Scalar.select (stay (leastR a q) ge) (a p ⟨j.val, h⟩) (a p ⟨j.val, h⟩ + wgtR a q p * (q ⟨j.val, h⟩ - a p ⟨j.val, h⟩))
  else
    Scalar.select (stay (leastR a q) ge) (mm p ⟨j.val - 64, by have := j.isLt; omega⟩)
      (mm p ⟨j.val - 64, by have := j.isLt; omega⟩
        + wgtR a q p * (qc ⟨j.val - 64, by have := j.isLt; omega⟩ - mm p ⟨j.val - 64, by have := j.isLt; omega⟩))

end Cert.Terms

end
-- ==== Proof.HostMid.lean ====
/-
  The host operations of the tiled program around its two passes.

  Before the first pass the two queries are reshaped to one-row arrays.  Between the passes the host turns the first
  pass's two one-element results — the final running maximum and sum — into the second pass's two scalars: the
  least distance is minus the maximum; the scale is the update rate times zero or one (one unless the least distance
  is at least the threshold made from the running error), over the sum.  The arrays the second pass reads are the
  launch memory's, untouched.
-/
import proofs.«172311_j70351564308696_1_alg».proof.Proof.Gen.KernelIdeal.Frame
import proofs.«172311_j70351564308696_1_alg».proof.Proof.Terms
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.StableHlo

namespace Cert.KernelIdeal.HostMid

open Cert.KernelIdeal Cert.KernelIdeal.Gen

/-- A reshape between two one-element shapes reads the one element. -/
theorem shapeCast_one {α : Type} {s t : Shape} (hs : s.numel = 1) (ht : t.numel = 1) (x : s.Idx → α) (h : s.ShapeCasts t)
    (j : t.Idx) (k : s.Idx) : shapeCast t x h j = x k :=
  shapeCast_apply x h j k (by
    have a : (s.rowMajor k).val < 1 := lt_of_lt_of_eq (s.rowMajor k).isLt hs
    have b : (t.rowMajor j).val < 1 := lt_of_lt_of_eq (t.rowMajor j).isLt ht
    omega)

variable (m : (ℓ : Loc nD τ sig) → Buf (Elt Ideal) ℓ) (ρ : Dev nD → PrngReg)

/-! ## What the first pass finds -/

theorem V1_arg0 (c : Dev nD) : V1 m ρ c main_arg0 = m ((c : Thread nD τ).loc main_arg0) := by
  show StableHlo.after hostOps0 (W0 m ρ c) (Proc.devRef .tc main_arg0) = _
  after_results <;> rfl

theorem V1_v0 (c : Dev nD) :
    (V1 m ρ c main_v0 : S1x64.Idx → EReal)
      = shapeCast S1x64 (m ((c : Thread nD τ).loc main_arg2) : S64.Idx → EReal) shapeCasts_S64_S1x64 := by
  show StableHlo.after hostOps0 (W0 m ρ c) (Proc.devRef .tc main_v0) = _
  after_results <;> rfl

/-- The query row the first pass reads is the query. -/
theorem V1_v0_apply (c : Dev nD) (k : Fin 64) :
    (V1 m ρ c main_v0 : S1x64.Idx → EReal) (ix2 0 k) = (m ((c : Thread nD τ).loc main_arg2) : S64.Idx → EReal) (ix1 k) := by
  rw [V1_v0]
  exact shapeCast_a_1a_apply _ _ 0 k

/-! ## Reading the one element of a small array -/

abbrev at11 (v : S1x1.Idx → EReal) : EReal := v (ix2 0 0)
abbrev at0 (v : S_.Idx → EReal) : EReal := v ix0
abbrev at1 (v : S1.Idx → EReal) : EReal := v (ix1 0)
abbrev bit0 (v : S_.Idx → BitVec 1) : BitVec 1 := v ix0

theorem numel_S1x1 : S1x1.numel = 1 := by decide
theorem numel_S_ : S_.numel = 1 := by decide
theorem numel_S1 : S1.numel = 1 := by decide

/-! ## The scalar arithmetic of the stretches, over typed one-element arrays -/

theorem cast11_0 (v : FVec Ideal S1x1 .f32) : shapeCast S_ v shapeCasts_S1x1_S_ ix0 = v (ix2 0 0) :=
  shapeCast_one numel_S1x1 numel_S_ _ _ ix0 (ix2 0 0)

theorem cast1_0 (g : FVec Ideal S1 .f32) : shapeCast S_ g shapeCasts_S1_S_ ix0 = g (ix1 0) :=
  shapeCast_one numel_S1 numel_S_ _ _ ix0 (ix1 0)

theorem cast0_11 (e : FVec Ideal S_ .f32) : shapeCast S1x1 e shapeCasts_S_S1x1 (ix2 0 0) = e ix0 :=
  shapeCast_one numel_S_ numel_S1x1 _ _ (ix2 0 0) ix0

/-- Minus the one element. -/
theorem neg_cast (v : FVec Ideal S1x1 .f32) :
    (Host.negf (shapeCast S_ v shapeCasts_S1x1_S_) : FVec Ideal S_ .f32) ix0 = -(v (ix2 0 0)) := by
  show -(shapeCast S_ v shapeCasts_S1x1_S_ ix0) = _
  rw [cast11_0]

/-- The comparison of the least distance with the threshold. -/
theorem stay_cast (v : FVec Ideal S1x1 .f32) (g : FVec Ideal S1 .f32) :
    (cmpf .oge (Host.negf (shapeCast S_ v shapeCasts_S1x1_S_))
      (mulf (addf (shapeCast S_ g shapeCasts_S1_S_)
          (mulf (constant S_ .f32 0x3FFB0775#32) (subf (Host.negf (shapeCast S_ v shapeCasts_S1x1_S_)) (shapeCast S_ g shapeCasts_S1_S_))))
        (constant S_ .f32 0x3F733333#32)) : IVec S_ 1) ix0
      = Terms.stay (-(v (ix2 0 0))) (g (ix1 0)) := by
  show Ideal.cmp .oge (-(shapeCast S_ v shapeCasts_S1x1_S_ ix0))
      ((shapeCast S_ g shapeCasts_S1_S_ ix0 + Terms.c1W * (-(shapeCast S_ v shapeCasts_S1x1_S_ ix0) - shapeCast S_ g shapeCasts_S1_S_ ix0)) * Terms.c2W) = _
  rw [cast11_0, cast1_0]
  rfl

/-- The scale from the zero-or-one factor `e` and the sum `w`. -/
theorem scale_cast (e w : FVec Ideal S_ .f32) :
    shapeCast S1x1 (Host.divf (mulf (constant S_ .f32 0x3CA237C3#32) (id e)) w) shapeCasts_S_S1x1 (ix2 0 0)
      = Ideal.div (Terms.emaW * e ix0) (w ix0) := by
  rw [cast0_11]
  rfl

/-! ## The three stretches between the passes, each over any contents `X` -/

section Stretches

variable (X : Valuation τ sig (Elt Ideal))

/-- First stretch: minus the running maximum. -/
theorem s0_v5 : at0 (StableHlo.after hostOps1 X (Proc.devRef .tc main_v5)) = -(at11 (X (Proc.devRef .tc main_v2_0))) := by
  after_results
  exact neg_cast _

/-- First stretch: the running sum, as a scalar. -/
theorem s0_v4 : at0 (StableHlo.after hostOps1 X (Proc.devRef .tc main_v4)) = at11 (X (Proc.devRef .tc main_v2_1)) := by
  after_results
  exact cast11_0 _

/-- First stretch: whether nothing is to move. -/
theorem s0_v11 : bit0 (StableHlo.after hostOps1 X (Proc.devRef .tc main_v11))
    = Terms.stay (-(at11 (X (Proc.devRef .tc main_v2_0)))) (at1 (X (Proc.devRef .tc main_arg4))) := by
  after_results
  exact stay_cast _ _

theorem s0_cst1 : at0 (StableHlo.after hostOps1 X (Proc.devRef .tc main_cst_1)) = Terms.zeroW := by
  after_results
  rfl

theorem s0_cst2 : at0 (StableHlo.after hostOps1 X (Proc.devRef .tc main_cst_2)) = Terms.oneW := by
  after_results
  rfl

/-- Second stretch: the select. -/
theorem s1_v12 : at0 (StableHlo.after hostOps1_1 X (Proc.devRef .tc main_v12))
    = Scalar.select (bit0 (X (Proc.devRef .tc main_v11))) (at0 (X (Proc.devRef .tc main_cst_1))) (at0 (X (Proc.devRef .tc main_cst_2))) := by
  after_results
  simp only [TRef.ofBuf, TRef.toBuf, cast_eq]
  rfl

theorem s1_v4 : StableHlo.after hostOps1_1 X (Proc.devRef .tc main_v4) = X (Proc.devRef .tc main_v4) := by
  after_results

theorem s1_v5 : StableHlo.after hostOps1_1 X (Proc.devRef .tc main_v5) = X (Proc.devRef .tc main_v5) := by
  after_results

/-- Third stretch: the least distance as a one-element array. -/
theorem s2_v16 : at11 (StableHlo.after hostOps1_2 X (Proc.devRef .tc main_v16)) = at0 (X (Proc.devRef .tc main_v5)) := by
  after_results
  exact cast0_11 _

/-- Third stretch: the scale. -/
theorem s2_v17 : at11 (StableHlo.after hostOps1_2 X (Proc.devRef .tc main_v17))
    = Ideal.div (Terms.emaW * at0 (X (Proc.devRef .tc main_v12))) (at0 (X (Proc.devRef .tc main_v4))) := by
  after_results
  exact scale_cast _ _

end Stretches

/-! ## What the second pass finds -/

/-- The least distance the second pass reads: minus the first pass's running maximum. -/
theorem least_entry (c : Dev nD) :
    at11 (V5 m ρ c main_v16) = -(at11 (W2 m ρ c (Proc.devRef .tc main_v2_0))) :=
  (s2_v16 (W4 m ρ c)).trans ((congrArg at0 (s1_v5 (W3 m ρ c))).trans (s0_v5 (W2 m ρ c)))

/-- The scale the second pass reads. -/
theorem scale_entry (c : Dev nD) :
    at11 (V5 m ρ c main_v17)
      = Ideal.div (Terms.emaW * Scalar.select
            (Terms.stay (-(at11 (W2 m ρ c (Proc.devRef .tc main_v2_0)))) (at1 (W2 m ρ c (Proc.devRef .tc main_arg4))))
            Terms.zeroW Terms.oneW)
          (at11 (W2 m ρ c (Proc.devRef .tc main_v2_1))) := by
  refine (s2_v17 (W4 m ρ c)).trans ?_
  rw [show at0 (W4 m ρ c (Proc.devRef .tc main_v12)) = _ from s1_v12 (W3 m ρ c),
    show at0 (W4 m ρ c (Proc.devRef .tc main_v4)) = _ from (congrArg at0 (s1_v4 (W3 m ρ c))).trans (s0_v4 (W2 m ρ c)),
    show bit0 (W3 m ρ c (Proc.devRef .tc main_v11)) = _ from s0_v11 (W2 m ρ c),
    show at0 (W3 m ρ c (Proc.devRef .tc main_cst_1)) = _ from s0_cst1 (W2 m ρ c),
    show at0 (W3 m ρ c (Proc.devRef .tc main_cst_2)) = _ from s0_cst2 (W2 m ρ c)]

/-! ## The arrays the second pass reads are the launch memory's -/

section Kept

variable (X : Valuation τ sig (Elt Ideal))

/-- No operation between the passes writes the address array, the content array or the two query rows. -/
theorem keep_arg0 : StableHlo.after hostOps1_2 (StableHlo.after hostOps1_1 (StableHlo.after hostOps1 X)) (Proc.devRef .tc main_arg0)
    = X (Proc.devRef .tc main_arg0) := by
  after_results
theorem keep_arg1 : StableHlo.after hostOps1_2 (StableHlo.after hostOps1_1 (StableHlo.after hostOps1 X)) (Proc.devRef .tc main_arg1)
    = X (Proc.devRef .tc main_arg1) := by
  after_results
theorem keep_v0 : StableHlo.after hostOps1_2 (StableHlo.after hostOps1_1 (StableHlo.after hostOps1 X)) (Proc.devRef .tc main_v0)
    = X (Proc.devRef .tc main_v0) := by
  after_results
theorem keep_v1 : StableHlo.after hostOps1_2 (StableHlo.after hostOps1_1 (StableHlo.after hostOps1 X)) (Proc.devRef .tc main_v1)
    = X (Proc.devRef .tc main_v1) := by
  after_results

end Kept

theorem V1_arg1 (c : Dev nD) : V1 m ρ c main_arg1 = m ((c : Thread nD τ).loc main_arg1) := by
  show StableHlo.after hostOps0 (W0 m ρ c) (Proc.devRef .tc main_arg1) = _
  after_results <;> rfl

theorem V1_arg4 (c : Dev nD) : V1 m ρ c main_arg4 = m ((c : Thread nD τ).loc main_arg4) := by
  show StableHlo.after hostOps0 (W0 m ρ c) (Proc.devRef .tc main_arg4) = _
  after_results <;> rfl

theorem V1_v1 (c : Dev nD) :
    (V1 m ρ c main_v1 : S1x10.Idx → EReal)
      = shapeCast S1x10 (m ((c : Thread nD τ).loc main_arg3) : S10.Idx → EReal) shapeCasts_S10_S1x10 := by
  show StableHlo.after hostOps0 (W0 m ρ c) (Proc.devRef .tc main_v1) = _
  after_results <;> rfl

/-- The first pass leaves its two inputs as it found them. -/
theorem W2_arg0 (c : Dev nD) : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (V1_arg0 m ρ c)

theorem W2_v0 (c : Dev nD) : W2 m ρ c (Proc.devRef .tc main_v0) = V1 m ρ c main_v0 :=
  (W2_arr m ρ c 0).trans (((dat0 (V1 m ρ) c).arrAt_in 0 rfl _).trans (A_eq0 (V1 m ρ) c 0))

theorem W2_arg1 (c : Dev nD) : W2 m ρ c (Proc.devRef .tc main_arg1) = m ((c : Thread nD τ).loc main_arg1) :=
  (W2_of_ne m ρ c main_arg1 (by decide)).trans (V1_arg1 m ρ c)

theorem W2_arg4 (c : Dev nD) : W2 m ρ c (Proc.devRef .tc main_arg4) = m ((c : Thread nD τ).loc main_arg4) :=
  (W2_of_ne m ρ c main_arg4 (by decide)).trans (V1_arg4 m ρ c)

theorem W2_v1 (c : Dev nD) : W2 m ρ c (Proc.devRef .tc main_v1) = V1 m ρ c main_v1 :=
  W2_of_ne m ρ c main_v1 (by decide)

theorem V5_arg0 (c : Dev nD) : V5 m ρ c main_arg0 = m ((c : Thread nD τ).loc main_arg0) :=
  (keep_arg0 (W2 m ρ c)).trans (W2_arg0 m ρ c)

theorem V5_arg1 (c : Dev nD) : V5 m ρ c main_arg1 = m ((c : Thread nD τ).loc main_arg1) :=
  (keep_arg1 (W2 m ρ c)).trans (W2_arg1 m ρ c)

/-- The query row the second pass reads is the query. -/
theorem V5_v0_apply (c : Dev nD) (k : Fin 64) :
    (V5 m ρ c main_v0 : S1x64.Idx → EReal) (ix2 0 k) = (m ((c : Thread nD τ).loc main_arg2) : S64.Idx → EReal) (ix1 k) := by
  rw [show V5 m ρ c main_v0 = V1 m ρ c main_v0 from (keep_v0 (W2 m ρ c)).trans (W2_v0 m ρ c)]
  exact V1_v0_apply m ρ c k

/-- The query content row the second pass reads is the query content. -/
theorem V5_v1_apply (c : Dev nD) (k : Fin 10) :
    (V5 m ρ c main_v1 : S1x10.Idx → EReal) (ix2 0 k) = (m ((c : Thread nD τ).loc main_arg3) : S10.Idx → EReal) (ix1 k) := by
  rw [show V5 m ρ c main_v1 = V1 m ρ c main_v1 from (keep_v1 (W2 m ρ c)).trans (W2_v1 m ρ c), V1_v1]
  exact shapeCast_a_1a_apply _ _ 0 k

end Cert.KernelIdeal.HostMid

end
-- ==== Proof.Region0.lean ====
/-
  Region 0 of the tiled program: the pass that carries the running maximum and the running sum of exponentials over
  the 80 tiles.  What its two one-element outputs hold after each tile is `Terms.stats` of the rows and the query as
  the region finds them, and that is what the two result arrays end holding.
-/
import proofs.«172311_j70351564308696_1_alg».proof.Proof.Gen.KernelIdeal.Frame
import proofs.«172311_j70351564308696_1_alg».proof.Proof.Terms
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- The address rows as the region finds them. -/
abbrev aOf (c : Dev nD) : Fin 2000000 → Fin 64 → EReal := fun p k => (V c main_arg0 : S2000000x64.Idx → EReal) (ix2 p k)
/-- The query address as the region finds it (the one-row array the host reshaped it to). -/
abbrev qOf (c : Dev nD) : Fin 64 → EReal := fun k => (V c main_v0 : S1x64.Idx → EReal) (ix2 0 k)

/-- The zero offsets of a load or store of a whole buffer, however spelt. -/
theorem hz : (![0, 0] : Fin 2 → Nat) = fun _ => 0 := funext fun a => by fin_cases a <;> rfl

section Pieces

variable {F : FTy → Type} [FloatOps F]

/-- Case B (tiles 1 … 79): the one covering store of the maximum's buffer leaves the new maximum, computed from the
    tile, the query row and the old maximum. -/
theorem piece_B_m (c : Dev nD) (i : grid0.Coords) (a1 : Memref sig .tc .vmem S1x64 .f32) (h1 : a1.IsWhole)
    (a2 : Memref sig .tc .vmem S25000x64 .f32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S1x64 .f32) (x1 : Vec F S25000x64 .f32) (xo2 xo3 : Vec F S1x1 .f32) :
    out0_B_2 c i a1 h1 a2 h2 a3 h3 a4 h4 hc x0 x1 xo2 xo3 = k0_pay4 x1 x0 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, h4.read_unread,
    View.ld_unit_zero (S := S1x1) hz, View.ld_unit_zero (S := S1x64) hz, View.ld_unit_zero (S := S25000x64) hz]

/-- Case B: the one covering store of the sum's buffer leaves the new sum, computed from the tile, the query row, the
    old maximum and the old sum. -/
theorem piece_B_l (c : Dev nD) (i : grid0.Coords) (a1 : Memref sig .tc .vmem S1x64 .f32) (h1 : a1.IsWhole)
    (a2 : Memref sig .tc .vmem S25000x64 .f32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S1x64 .f32) (x1 : Vec F S25000x64 .f32) (xo2 xo3 : Vec F S1x1 .f32) :
    out0_B_3 c i a1 h1 a2 h2 a3 h3 a4 h4 hc x0 x1 xo2 xo3 = k0_pay5 x1 x0 xo2 xo3 xo2 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, h4.read_unread,
    View.ld_unit_zero (S := S1x1) hz, View.ld_unit_zero (S := S1x64) hz, View.ld_unit_zero (S := S25000x64) hz]

/-- Case A (tile 0): the maximum's buffer is first reset to the minus-infinity splat, then the update, reading the reset
    value back, is stored over it. -/
theorem piece_A_m (c : Dev nD) (i : grid0.Coords) (a1 : Memref sig .tc .vmem S1x64 .f32) (h1 : a1.IsWhole)
    (a2 : Memref sig .tc .vmem S25000x64 .f32) (h2 : a2.IsWhole) (a3 : Memref sig .tc .vmem S1x1 .f32) (h3 : a3.IsWhole)
    (a4 : Memref sig .tc .vmem S1x1 .f32) (h4 : a4.IsWhole) (hc : cond0_0 i)
    (x0 : Vec F S1x64 .f32) (x1 : Vec F S25000x64 .f32) :
    out0_A_2 c i a1 h1 a2 h2 a3 h3 a4 h4 hc x0 x1 = k0_pay4 x1 x0 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz]
  simp only [View.readAt_eq_ld, h1.read_unread, h2.read_unread, View.readCov_unit_zero (S := S1x1) _ hz,
    View.ld_unit_zero (S := S1x64) hz, View.ld_unit_zero (S := S25000x64) hz]

/-- Case A: the sum's buffer is first reset to the zero splat, then the update, reading both reset values back, is stored
    over it. -/
theorem piece_A_l (c : Dev nD) (i : grid0.Coords) (a1 : Memref sig .tc .vmem S1x64 .f32) (h1 : a1.IsWhole)
    (a2 : Memref sig .tc .vmem S25000x64 .f32) (h2 : a2.IsWhole) (a3 : Memref sig .tc .vmem S1x1 .f32) (h3 : a3.IsWhole)
    (a4 : Memref sig .tc .vmem S1x1 .f32) (h4 : a4.IsWhole) (hc : cond0_0 i)
    (x0 : Vec F S1x64 .f32) (x1 : Vec F S25000x64 .f32) :
    out0_A_3 c i a1 h1 a2 h2 a3 h3 a4 h4 hc x0 x1 = k0_pay5 x1 x0 (k0_pay1 (F := F)) (k0_pay2 (F := F)) (k0_pay1 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz]
  simp only [View.readAt_eq_ld, h1.read_unread, h2.read_unread, View.readCov_unit_zero (S := S1x1) _ hz,
    View.ld_unit_zero (S := S1x64) hz, View.ld_unit_zero (S := S25000x64) hz]

end Pieces

section Payload

/-- Lane `r` of a tile `v3` against the query row `v4`: the zero word minus the Euclidean distance of row `r` to the
    query. -/
def lane (v3 : FVec Ideal S25000x64 .f32) (v4 : FVec Ideal S1x64 .f32) (r : Fin 25000) : EReal :=
  Terms.zeroW - Ideal.sqrt (∑ k : Fin 64, (v3 (ix2 r k) - v4 (ix2 0 k)) * (v3 (ix2 r k) - v4 (ix2 0 k)))

/-- A vector of 25000 entries viewed as a column reads entry `r` in row `r`. -/
theorem col_cast_apply {α : Type} (x : S25000.Idx → α) (h : S25000.ShapeCasts S25000x1) (r : Fin 25000) :
    shapeCast S25000x1 x h (ix2 r 0) = x (ix1 r) :=
  shapeCast_apply x h (ix2 r 0) (ix1 r) (by
    rw [Shape.rowMajor_val_one, Shape.rowMajor_val_two]
    show r.val = r.val * 1 + 0
    omega)

/-- A one-entry vector viewed as a one-by-one matrix reads its entry. -/
theorem one_cast_apply {α : Type} (x : S1.Idx → α) (h : S1.ShapeCasts S1x1) :
    shapeCast S1x1 x h (ix2 0 0) = x (ix1 0) :=
  shapeCast_apply x h (ix2 0 0) (ix1 0) (by
    rw [Shape.rowMajor_val_one, Shape.rowMajor_val_two]
    rfl)

/-- The square root and the exponential of a vector, read at an index. -/
theorem sqrt_apply {s : Shape} (x : FVec Ideal s .f32) (i : s.Idx) : Idealize.ShloMosaic.sqrt x i = Ideal.sqrt (x i) := rfl
theorem exp_apply {s : Shape} (x : FVec Ideal s .f32) (i : s.Idx) : Idealize.ShloMosaic.exp x i = Ideal.exp (x i) := rfl

/-- The tile's lanes: the body's vector of minus-distances, at row `r`, is `lane`. -/
theorem pay3_apply (v3 : FVec Ideal S25000x64 .f32) (v4 : FVec Ideal S1x64 .f32) (r : Fin 25000) :
    k0_pay3 (F := Ideal) v3 v4 (ix2 r 0) = lane v3 v4 r := by
  unfold k0_pay3 lane
  dsimp only
  rw [subf_apply, broadcast_apply, sqrt_apply, col_cast_apply]
  refine congrArg (fun z => Terms.zeroW - Ideal.sqrt z) ?_
  refine (Ideal.multiReduction_add_single _ _ _ _ _ (ix1 r)).trans ?_
  refine Finset.sum_congr rfl fun (k : Fin 64) _ => ?_
  have hl : reduces_S25000x64_S25000.lift (ix1 r) k = ix2 r k := by
    funext a
    apply Fin.ext
    match a with
    | ⟨0, _⟩ => rfl
    | ⟨1, _⟩ => rfl
  rw [hl]
  show (v3 (ix2 r k) - broadcastTo S25000x64 (shapeCast S1x64 v4 shapeCasts_S1x64_S1x64) broadcasts_S1x64_S25000x64 (ix2 r k))
      * (v3 (ix2 r k) - broadcastTo S25000x64 (shapeCast S1x64 v4 shapeCasts_S1x64_S1x64) broadcasts_S1x64_S25000x64 (ix2 r k)) = _
  rw [broadcastTo_1b_ab_apply, shapeCast_self]

/-- The new maximum: the old one joined with the maximum of the tile's lanes, taken from the minus-infinity word. -/
theorem pay4_apply (v3 : FVec Ideal S25000x64 .f32) (v4 : FVec Ideal S1x64 .f32) (v16 : FVec Ideal S1x1 .f32) :
    k0_pay4 (F := Ideal) v3 v4 v16 (ix2 0 0)
      = max (v16 (ix2 0 0)) ((Finset.univ : Finset (Fin 25000)).fold max Terms.ninfW (lane v3 v4)) := by
  unfold k0_pay4
  dsimp only
  rw [maximumf_apply, shapeCast_self, one_cast_apply]
  refine congrArg (max (v16 (ix2 0 0))) ?_
  refine (Ideal.multiReduction_maximumf_single _ _ _ _ _ (ix1 0)).trans ?_
  refine congrArg (fun f => (Finset.univ : Finset (Fin 25000)).fold max Terms.ninfW f) ?_
  funext (r : Fin 25000)
  have hl : reduces_S25000x1_S1.lift (ix1 0) r = ix2 r 0 := by
    funext a
    apply Fin.ext
    match a with
    | ⟨0, _⟩ => rfl
    | ⟨1, _⟩ => rfl
  show k0_pay3 (F := Ideal) v3 v4 (reduces_S25000x1_S1.lift (ix1 0) r) = _
  rw [hl]
  exact pay3_apply v3 v4 r

/-- The new sum: the old one rescaled from the old maximum to the new, plus the tile's sum of exponentials of the lanes
    taken at the new maximum. -/
theorem pay5_apply (v3 : FVec Ideal S25000x64 .f32) (v4 : FVec Ideal S1x64 .f32) (v16 v24 v26 : FVec Ideal S1x1 .f32) :
    k0_pay5 (F := Ideal) v3 v4 v16 v24 v26 (ix2 0 0)
      = v24 (ix2 0 0) * Ideal.exp (v26 (ix2 0 0) - k0_pay4 (F := Ideal) v3 v4 v16 (ix2 0 0))
        + ∑ r : Fin 25000, Ideal.exp (lane v3 v4 r - k0_pay4 (F := Ideal) v3 v4 v16 (ix2 0 0)) := by
  unfold k0_pay5
  dsimp only
  rw [addf_apply, mulf_apply, exp_apply, subf_apply, shapeCast_self, shapeCast_self, one_cast_apply]
  refine congrArg (fun z => v24 (ix2 0 0) * Ideal.exp (v26 (ix2 0 0) - k0_pay4 (F := Ideal) v3 v4 v16 (ix2 0 0)) + z) ?_
  refine (Ideal.multiReduction_add_single _ _ _ _ _ (ix1 0)).trans ?_
  refine Finset.sum_congr rfl fun (r : Fin 25000) _ => ?_
  have hl : reduces_S25000x1_S1.lift (ix1 0) r = ix2 r 0 := by
    funext a
    apply Fin.ext
    match a with
    | ⟨0, _⟩ => rfl
    | ⟨1, _⟩ => rfl
  rw [hl, exp_apply, subf_apply, pay3_apply, broadcastTo_1b_ab_apply]

end Payload

section Blocks

/-- Where the two input windows sit at each point, decided over the grid: the tile window is at row block `t`, the query
    window never moves. -/
theorem idx_tile : ∀ t : Fin cfg0.N, win0_1.index t 0 = t.val ∧ win0_1.index t 1 = 0 :=
  (by decide +kernel : ∀ t : Fin grid0.N, win0_1.index t 0 = t.val ∧ win0_1.index t 1 = 0)
theorem idx_query : ∀ t : Fin cfg0.N, win0_0.index t 0 = 0 ∧ win0_0.index t 1 = 0 :=
  (by decide +kernel : ∀ t : Fin grid0.N, win0_0.index t 0 = 0 ∧ win0_0.index t 1 = 0)

/-- Row `r` of the tile at point `t` is row `25000 t + r` of the address array. -/
theorem tile_apply (c : Dev nD) (t : Fin cfg0.N) (r : Fin 25000) (k : Fin 64) (h : t.val * 25000 + r.val < 2000000) :
    (iblk0 V c 1 t : FVec Ideal S25000x64 .f32) (ix2 r k) = aOf V c ⟨t.val * 25000 + r.val, h⟩ k := by
  unfold iblk0
  rw [View.read_apply]
  show V c main_arg0 _ = V c main_arg0 _
  congr 1
  funext a
  apply Fin.ext
  match a with
  | ⟨0, _⟩ =>
    show win0_1.index t 0 * 25000 + 1 * r.val = t.val * 25000 + r.val
    rw [(idx_tile t).1]; omega
  | ⟨1, _⟩ =>
    show win0_1.index t 1 * 64 + 1 * k.val = k.val
    rw [(idx_tile t).2]; omega

/-- The query window's block is the query row itself at every point. -/
theorem query_apply (c : Dev nD) (t : Fin cfg0.N) (k : Fin 64) :
    (iblk0 V c 0 t : FVec Ideal S1x64 .f32) (ix2 0 k) = qOf V c k := by
  unfold iblk0
  rw [View.read_apply]
  show V c main_v0 _ = V c main_v0 _
  congr 1
  funext a
  apply Fin.ext
  match a with
  | ⟨0, _⟩ =>
    show win0_0.index t 0 * 1 + 1 * 0 = 0
    rw [(idx_query t).1]
  | ⟨1, _⟩ =>
    show win0_0.index t 1 * 64 + 1 * k.val = k.val
    rw [(idx_query t).2]; omega

end Blocks

section Accumulation

/-- The one index of a one-by-one vector. -/
theorem idx11 (j : S1x1.Idx) : j = ix2 0 0 := by
  funext a
  apply Fin.ext
  match a with
  | ⟨0, _⟩ => have := idx2_lt0 j; show (j 0).val = 0; omega
  | ⟨1, _⟩ => have := idx2_lt1 j; show (j 1).val = 0; omega

/-- A one-by-one vector is the constant at its one entry. -/
theorem const11 (x : FVec Ideal S1x1 .f32) (v : EReal) (h : x (ix2 0 0) = v) : x = fun _ => v :=
  funext fun j => by rw [idx11 j]; exact h

/-- The two reset splats at their one entry: the minus-infinity word and the zero word. -/
theorem pay1_apply : k0_pay1 (F := Ideal) (ix2 0 0) = Terms.ninfW := rfl
theorem pay2_apply : k0_pay2 (F := Ideal) (ix2 0 0) = Terms.zeroW := rfl

/-- The lanes of the tile at point `t` against the query block are the lanes `Terms.nd` of tile `t` of the address rows
    against the query: row `r` of the block is row `25000 t + r` of the array, which is inside it at every one of the 80
    points. -/
theorem lane_eq (c : Dev nD) (t : Fin cfg0.N) :
    lane (iblk0 V c 1 t) (iblk0 V c 0 t) = Terms.nd (aOf V c) (qOf V c) t.val := by
  funext r
  have hN : t.val < 80 := lt_of_lt_of_eq t.isLt (show cfg0.N = 80 from N_0)
  have h : t.val * 25000 + r.val < 2000000 := by have := r.isLt; omega
  unfold lane Terms.nd
  rw [dif_pos h]
  unfold Terms.dist
  refine congrArg (fun z => Terms.zeroW - Ideal.sqrt z) ?_
  refine Finset.sum_congr rfl fun k _ => ?_
  rw [tile_apply V c t r k h, query_apply V c t k]

/-- One point's update of the two one-entry vectors holding `m` and `l` is `Terms.step` of the pair. -/
theorem update_eq (c : Dev nD) (t : Fin cfg0.N) (xm xl : FVec Ideal S1x1 .f32) (m l : EReal)
    (hm : xm (ix2 0 0) = m) (hl : xl (ix2 0 0) = l) :
    k0_pay4 (F := Ideal) (iblk0 V c 1 t) (iblk0 V c 0 t) xm (ix2 0 0) = (Terms.step (aOf V c) (qOf V c) t.val (m, l)).1
    ∧ k0_pay5 (F := Ideal) (iblk0 V c 1 t) (iblk0 V c 0 t) xm xl xm (ix2 0 0)
        = (Terms.step (aOf V c) (qOf V c) t.val (m, l)).2 := by
  refine ⟨?_, ?_⟩
  · rw [pay4_apply, lane_eq V c t, hm]
    rfl
  · rw [pay5_apply, pay4_apply, lane_eq V c t, hm, hl]
    rfl

/-- A point of case A (the first tile): the reset values, then the update. -/
theorem point_A (c : Dev nD) (t : Fin cfg0.N) (h0 : t.val % 80 = 0) :
    outsAt0 V c t.val t.isLt
      = ((fun _ => (Terms.step (aOf V c) (qOf V c) t.val (Terms.ninfW, Terms.zeroW)).1 : Vec Ideal S1x1 .f32),
          (fun _ => (Terms.step (aOf V c) (qOf V c) t.val (Terms.ninfW, Terms.zeroW)).2 : Vec Ideal S1x1 .f32)) := by
  have hu := update_eq V c t (k0_pay1 (F := Ideal)) (k0_pay2 (F := Ideal)) Terms.ninfW Terms.zeroW pay1_apply pay2_apply
  rw [outsAt0_A V c t h0]
  refine Prod.ext ?_ ?_
  · dsimp only
    refine (piece_A_m (F := Ideal) c (grid0.coords t) (ms0_0 t) (hs0_0 t) (ms0_1 t) (hs0_1 t) (ms0_2 t) (hs0_2 t) (ms0_3 t)
      (hs0_3 t) ((hcond0_0 t).mpr h0) (iblk0 V c 0 t) (iblk0 V c 1 t)).trans ?_
    exact const11 _ _ hu.1
  · dsimp only
    refine (piece_A_l (F := Ideal) c (grid0.coords t) (ms0_0 t) (hs0_0 t) (ms0_1 t) (hs0_1 t) (ms0_2 t) (hs0_2 t) (ms0_3 t)
      (hs0_3 t) ((hcond0_0 t).mpr h0) (iblk0 V c 0 t) (iblk0 V c 1 t)).trans ?_
    exact const11 _ _ hu.2

/-- A point of case B (a later tile): the update of what the point before left. -/
theorem point_B (c : Dev nD) (t : Fin cfg0.N) (h0 : ¬t.val % 80 = 0) (m l : EReal)
    (hprev : outsAt0 V c (t.val - 1) (Nat.lt_of_le_of_lt (Nat.sub_le _ _) t.isLt)
      = ((fun _ => m : Vec Ideal S1x1 .f32), (fun _ => l : Vec Ideal S1x1 .f32))) :
    outsAt0 V c t.val t.isLt
      = ((fun _ => (Terms.step (aOf V c) (qOf V c) t.val (m, l)).1 : Vec Ideal S1x1 .f32),
          (fun _ => (Terms.step (aOf V c) (qOf V c) t.val (m, l)).2 : Vec Ideal S1x1 .f32)) := by
  have hu := update_eq V c t (fun _ => m) (fun _ => l) m l rfl rfl
  rw [outsAt0_B V c t h0, hprev]
  refine Prod.ext ?_ ?_
  · dsimp only
    refine (piece_B_m (F := Ideal) c (grid0.coords t) (ms0_0 t) (hs0_0 t) (ms0_1 t) (hs0_1 t) (ms0_2 t) (hs0_2 t) (ms0_3 t)
      (hs0_3 t) (fun h => h0 ((hcond0_0 t).mp h)) (iblk0 V c 0 t) (iblk0 V c 1 t) (fun _ => m) (fun _ => l)).trans ?_
    exact const11 _ _ hu.1
  · dsimp only
    refine (piece_B_l (F := Ideal) c (grid0.coords t) (ms0_0 t) (hs0_0 t) (ms0_1 t) (hs0_1 t) (ms0_2 t) (hs0_2 t) (ms0_3 t)
      (hs0_3 t) (fun h => h0 ((hcond0_0 t).mp h)) (iblk0 V c 0 t) (iblk0 V c 1 t) (fun _ => m) (fun _ => l)).trans ?_
    exact const11 _ _ hu.2

end Accumulation

/-- After tile `n` the two outputs' staging buffers hold the running maximum and the running sum. -/
theorem outsAt0_eq (c : Dev nD) (n : ℕ) (h : n < cfg0.N) :
    outsAt0 V c n h = ((fun _ => (Terms.stats (aOf V c) (qOf V c) n).1 : Vec Ideal S1x1 .f32),
      (fun _ => (Terms.stats (aOf V c) (qOf V c) n).2 : Vec Ideal S1x1 .f32)) := by
  induction n with
  | zero => exact point_A V c ⟨0, h⟩ rfl
  | succ n ih =>
    have hN : cfg0.N = 80 := N_0
    have hB : ¬(⟨n + 1, h⟩ : Fin cfg0.N).val % 80 = 0 := by dsimp only; omega
    exact point_B V c ⟨n + 1, h⟩ hB _ _ (ih (Nat.lt_of_succ_lt h))

section Final

/-- The last point of the grid, the only one at which the two outputs are written back. -/
abbrev tLast : Fin cfg0.N := ⟨79, by rw [show cfg0.N = 80 from N_0]; decide⟩

/-- Where the two output windows sit, and how much of their block lies inside the array, decided over the grid: always at
    block (0, 0), the whole one-by-one block. -/
theorem idx_m : ∀ t : Fin cfg0.N, (win0_2.index t 0 = 0 ∧ win0_2.index t 1 = 0)
    ∧ (win0_2.xsize (grid0.coords t) 0 = 1 ∧ win0_2.xsize (grid0.coords t) 1 = 1) :=
  (by decide +kernel : ∀ t : Fin grid0.N, (win0_2.index t 0 = 0 ∧ win0_2.index t 1 = 0)
    ∧ (win0_2.xsize (grid0.coords t) 0 = 1 ∧ win0_2.xsize (grid0.coords t) 1 = 1))
theorem idx_l : ∀ t : Fin cfg0.N, (win0_3.index t 0 = 0 ∧ win0_3.index t 1 = 0)
    ∧ (win0_3.xsize (grid0.coords t) 0 = 1 ∧ win0_3.xsize (grid0.coords t) 1 = 1) :=
  (by decide +kernel : ∀ t : Fin grid0.N, (win0_3.index t 0 = 0 ∧ win0_3.index t 1 = 0)
    ∧ (win0_3.xsize (grid0.coords t) 0 = 1 ∧ win0_3.xsize (grid0.coords t) 1 = 1))

/-- What the one write-back of the maximum's window writes: the running maximum after the last tile, and the block it
    writes is the whole one-by-one array. -/
theorem flushed_m (c : Dev nD) (t : Fin cfg0.N) (hf : (cfg0.win 2).flush t = true) :
    (dat0 V c).flushed 2 t
      = ((cfg0.win 2).blk t).view.read (Elt Ideal) (fun _ => (Terms.stats (aOf V c) (qOf V c) 79).1 : S1x1.Idx → EReal) := by
  have hN : cfg0.N = 80 := N_0
  have h79 : t.val = 79 := by have := (flush0_2 t).mp hf; have := t.isLt; omega
  obtain rfl : t = tLast := Fin.ext h79
  show (cfg0.win 2).cut (grid0.coords tLast) ((dat0 V c).after 2 tLast) = _
  rw [after0_2, outsAt0_eq]
  have hz' : (fun a => win0_2.index tLast a * main_v2_0.ty.shape.size a) = fun _ => 0 := funext fun a =>
    match a with
    | ⟨0, _⟩ => by show win0_2.index tLast 0 * 1 = 0; rw [(idx_m tLast).1.1]
    | ⟨1, _⟩ => by show win0_2.index tLast 1 * 1 = 0; rw [(idx_m tLast).1.2]
  exact (Memref.read_access_unit_zero (Elt Ideal) main_v2_0 hz' (fun a => by rw [congrFun hz' a]; simp) _).symm

/-- The same for the sum's window. -/
theorem flushed_l (c : Dev nD) (t : Fin cfg0.N) (hf : (cfg0.win 3).flush t = true) :
    (dat0 V c).flushed 3 t
      = ((cfg0.win 3).blk t).view.read (Elt Ideal) (fun _ => (Terms.stats (aOf V c) (qOf V c) 79).2 : S1x1.Idx → EReal) := by
  have hN : cfg0.N = 80 := N_0
  have h79 : t.val = 79 := by have := (flush0_3 t).mp hf; have := t.isLt; omega
  obtain rfl : t = tLast := Fin.ext h79
  show (cfg0.win 3).cut (grid0.coords tLast) ((dat0 V c).after 3 tLast) = _
  rw [after0_3, outsAt0_eq]
  have hz' : (fun a => win0_3.index tLast a * main_v2_1.ty.shape.size a) = fun _ => 0 := funext fun a =>
    match a with
    | ⟨0, _⟩ => by show win0_3.index tLast 0 * 1 = 0; rw [(idx_l tLast).1.1]
    | ⟨1, _⟩ => by show win0_3.index tLast 1 * 1 = 0; rw [(idx_l tLast).1.2]
  exact (Memref.read_access_unit_zero (Elt Ideal) main_v2_1 hz' (fun a => by rw [congrFun hz' a]; simp) _).symm

end Final

/-- The running-maximum array after the region. -/
theorem final0_m (c : Dev nD) :
    (dat0 V c).arrAt 2 cfg0.N = (fun _ => (Terms.stats (aOf V c) (qOf V c) 79).1 : S1x1.Idx → EReal) :=
  (dat0 V c).arrAt_eq_of_cover 2 _ (flushed_m V c) fun i =>
    ⟨tLast, (flush0_2 tLast).mpr rfl, by
      show i ∈ ((View.whole main_v2_0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [(idx_m tLast).1.1, (idx_m tLast).2.1]; omega
      | ⟨1, _⟩ =>
        show win0_2.index tLast 1 * win0_2.size 1 ≤ (i 1 : Nat)
          ∧ (i 1 : Nat) < win0_2.index tLast 1 * win0_2.size 1 + win0_2.xsize (grid0.coords tLast) 1
        rw [(idx_m tLast).1.2, (idx_m tLast).2.2]; omega⟩

/-- The running-sum array after the region. -/
theorem final0_l (c : Dev nD) :
    (dat0 V c).arrAt 3 cfg0.N = (fun _ => (Terms.stats (aOf V c) (qOf V c) 79).2 : S1x1.Idx → EReal) :=
  (dat0 V c).arrAt_eq_of_cover 3 _ (flushed_l V c) fun i =>
    ⟨tLast, (flush0_3 tLast).mpr rfl, by
      show i ∈ ((View.whole main_v2_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [(idx_l tLast).1.1, (idx_l tLast).2.1]; omega
      | ⟨1, _⟩ =>
        show win0_3.index tLast 1 * win0_3.size 1 ≤ (i 1 : Nat)
          ∧ (i 1 : Nat) < win0_3.index tLast 1 * win0_3.size 1 + win0_3.xsize (grid0.coords tLast) 1
        rw [(idx_l tLast).1.2, (idx_l tLast).2.2]; omega⟩

end Cert.KernelIdeal.Region0

end
-- ==== Proof.Region1.lean ====
/-
  Region 1 of the tiled program: the pass that moves every row.  Its result array ends holding `Terms.outK` of the
  rows, the queries, the least distance and the scale as the region finds them.

  The pass reads the two million rows in 80 tiles of 25000.  For a tile it computes one column of weights, row `r`'s
  being `exp (least distance - distance of row r to the query) * scale`, and stores two things into the tile of the
  result: in columns 0 … 63 each address moved toward the query address by its row's weight, in columns 64 … 73 each
  content moved toward the query content by the same weight.  The two stores have different widths and together
  cover the tile, so the tile reads back as one function of its row and column (`blkFn`, `out1_apply`).  At the
  exact values the weight column, the moved addresses and the moved contents are read entry by entry
  (`pay1_apply`, `pay2_apply`, `pay3_apply`): the sum of squares is a sum over the 64 columns, the query row is
  laid along every row, the weight column along every column.  Row `r` of tile `t` of either array is row
  `25000 t + r` of the array, and the queries, the least distance and the scale are the same block at every tile
  (`iblk0_apply` … `iblk5_apply`); so what tile `t` writes back is tile `t` of the specification's array
  (`flushed_eq`).  Row `p` lies in tile `p / 25000`, every tile is written back, and the array ends holding the
  specification (`final1`).
-/
import proofs.«172311_j70351564308696_1_alg».proof.Proof.Gen.KernelIdeal.Frame
import proofs.«172311_j70351564308696_1_alg».proof.Proof.Terms
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-! ## Layout operations at an index: the column forms -/

theorem hz : (![0, 0] : Fin 2 → Nat) = fun _ => 0 := funext fun a => by fin_cases a <;> rfl

/-- A vector of `a` entries cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with column `k` put back is `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-! ## The payloads at an index -/

/-- The query row laid along every row of a tile. -/
theorem rowBcast64 {α : Type} (v : S1x64.Idx → α) (r : Fin 25000) (k : Fin 64) :
    broadcastTo S25000x64 (shapeCast S1x64 v shapeCasts_S1x64_S1x64) broadcasts_S1x64_S25000x64 (ix2 r k) = v (ix2 0 k) := by
  rw [shapeCast_self]; exact broadcastTo_1b_ab_apply v _ r k

/-- The query content row laid along every row of a tile. -/
theorem rowBcast10 {α : Type} (v : S1x10.Idx → α) (r : Fin 25000) (k : Fin 10) :
    broadcastTo S25000x10 (shapeCast S1x10 v shapeCasts_S1x10_S1x10) broadcasts_S1x10_S25000x10 (ix2 r k) = v (ix2 0 k) := by
  rw [shapeCast_self]; exact broadcastTo_1b_ab_apply v _ r k

/-- The one entry of a `[1, 1]` vector. -/
theorem extract00 {α : Type} (v : S1x1.Idx → α) : extractAt ![0, 0] v inpos_S1x1_p0_0 = v (ix2 0 0) :=
  congrArg v (funext fun a => Fin.ext (by match a with | ⟨0, _⟩ => rfl | ⟨1, _⟩ => rfl))

/-- A row's sum of squared differences to the query, as the tile computes it. -/
theorem sumsq_apply (v0 : Vec Ideal S25000x64 .f32) (v2 : Vec Ideal S1x64 .f32) (r : Fin 25000) :
    shapeCast S25000x1
        (multiReduction (F := Ideal) .add [1] S25000
          (mulf (subf v0 (broadcastTo S25000x64 (shapeCast S1x64 v2 shapeCasts_S1x64_S1x64) broadcasts_S1x64_S25000x64))
            (subf v0 (broadcastTo S25000x64 (shapeCast S1x64 v2 shapeCasts_S1x64_S1x64) broadcasts_S1x64_S25000x64)))
          0x00000000#32 reduces_S25000x64_S25000 (.inl rfl) rfl)
        shapeCasts_S25000_S25000x1 (ix2 r (0 : Fin 1))
      = ∑ k : Fin 64, (v0 (ix2 r k) - v2 (ix2 0 k)) * (v0 (ix2 r k) - v2 (ix2 0 k)) := by
  refine (shapeCast_a_a1_apply _ shapeCasts_S25000_S25000x1 r 0).trans ?_
  refine (Ideal.multiReduction_add_single _ 0x00000000#32 reduces_S25000x64_S25000 _ _ (ix1 r)).trans ?_
  refine Finset.sum_congr rfl fun k _ => ?_
  rw [lift_row reduces_S25000x64_S25000 r k]
  show (v0 (ix2 r ⟨k.val, k.isLt⟩) - _) * (v0 (ix2 r ⟨k.val, k.isLt⟩) - _) = _
  rw [rowBcast64 v2 r ⟨k.val, k.isLt⟩]
  rfl

/-- A column of weights at an entry: the exponential of a scalar minus the square root of the entry, times a scalar. -/
theorem wgt_col (s : FVec Ideal S25000x1 .f32) (a b : Ideal .f32) (j : S25000x1.Idx) :
    mulf (exp (subf (broadcast S25000x1 a) (sqrt s))) (broadcast S25000x1 b) j = Ideal.exp (a - Ideal.sqrt (s j)) * b := rfl

theorem pay1_apply (v0 : Vec Ideal S25000x64 .f32) (v2 : Vec Ideal S1x64 .f32) (v10 v15 : Vec Ideal S1x1 .f32) (r : Fin 25000) :
    k1_pay1 v0 v2 v10 v15 (ix2 r (0 : Fin 1))
      = Ideal.exp (v10 (ix2 0 0) - Ideal.sqrt (∑ k : Fin 64, (v0 (ix2 r k) - v2 (ix2 0 k)) * (v0 (ix2 r k) - v2 (ix2 0 k)))) * v15 (ix2 0 0) := by
  unfold k1_pay1
  refine (wgt_col _ _ _ _).trans ?_
  rw [extract00 v10, extract00 v15]
  exact congrArg (fun s => Ideal.exp (v10 (ix2 0 0) - Ideal.sqrt s) * v15 (ix2 0 0)) (sumsq_apply v0 v2 r)

/-- A vector moved toward another by a weight, at an entry. -/
theorem move_apply {s : Shape} (x w q : FVec Ideal s .f32) (j : s.Idx) :
    addf x (mulf w (subf q x)) j = x j + w j * (q j - x j) := rfl

theorem pay2_apply (v0 : Vec Ideal S25000x64 .f32) (v2 : Vec Ideal S1x64 .f32) (v10 v15 : Vec Ideal S1x1 .f32) (v19 : Vec Ideal S1x64 .f32)
    (r : Fin 25000) (k : Fin 64) :
    k1_pay2 v0 v2 v10 v15 v19 (ix2 r k)
      = v0 (ix2 r k) + k1_pay1 v0 v2 v10 v15 (ix2 r (0 : Fin 1)) * (v19 (ix2 0 k) - v0 (ix2 r k)) := by
  unfold k1_pay2
  refine (move_apply _ _ _ _).trans ?_
  rw [broadcastTo_a1_ab_apply _ broadcasts_S25000x1_S25000x64 r k, rowBcast64 v19 r k]

theorem pay3_apply (v0 : Vec Ideal S25000x64 .f32) (v1 : Vec Ideal S25000x10 .f32) (v2 : Vec Ideal S1x64 .f32) (v10 v15 : Vec Ideal S1x1 .f32)
    (v26 : Vec Ideal S1x10 .f32) (r : Fin 25000) (k : Fin 10) :
    k1_pay3 v0 v1 v2 v10 v15 v26 (ix2 r k)
      = v1 (ix2 r k) + k1_pay1 v0 v2 v10 v15 (ix2 r (0 : Fin 1)) * (v26 (ix2 0 k) - v1 (ix2 r k)) := by
  unfold k1_pay3
  refine (move_apply _ _ _ _).trans ?_
  rw [broadcastTo_a1_ab_apply _ broadcasts_S25000x1_S25000x10 r k, rowBcast10 v26 r k]

/-! ## The two stores read back as one function of the block index -/

section Pieces
variable {F : FTy → Type} [FloatOps F]

/-- What a tile's result block holds at row `r`, column `j`: the moved address in columns 0 … 63, the moved content
    in columns 64 … 73, each as the body computes it from the tile's six input blocks. -/
def blkFn (x0 : Vec F S1x64 .f32) (x1 : Vec F S1x10 .f32) (x2 x3 : Vec F S1x1 .f32) (x4 : Vec F S25000x64 .f32)
    (x5 : Vec F S25000x10 .f32) (r : Fin 25000) (j : Fin 74) : F .f32 :=
  if h : j.val < 64 then k1_pay2 x4 x0 x2 x3 x0 (ix2 r ⟨j.val, h⟩)
  else k1_pay3 x4 x5 x0 x2 x3 x1 (ix2 r ⟨j.val - 64, by have := j.isLt; omega⟩)

/-- The body's two stores, of 64 and of 10 columns, leave `blkFn` in the result block: each store's payload is
    `blkFn` read through the store's rectangle, and the two rectangles cover the block. -/
theorem out1_apply (c : Dev nD) (i : grid1.Coords) (arg1 : Memref sig .tc .vmem S1x64 .f32) (harg1 : arg1.IsWhole) (arg2 : Memref sig .tc .vmem S1x10 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S25000x64 .f32) (harg5 : arg5.IsWhole) (arg6 : Memref sig .tc .vmem S25000x10 .f32) (harg6 : arg6.IsWhole) (arg7 : Memref sig .tc .vmem S25000x74 .f32) (harg7 : arg7.IsWhole)
    (x0 : Vec F S1x64 .f32) (x1 : Vec F S1x10 .f32) (x2 : Vec F S1x1 .f32) (x3 : Vec F S1x1 .f32) (x4 : Vec F S25000x64 .f32) (x5 : Vec F S25000x10 .f32) (r : Fin 25000) (j : Fin 74) :
    out1_A_6 c i arg1 harg1 arg2 harg2 arg3 harg3 arg4 harg4 arg5 harg5 arg6 harg6 arg7 harg7 x0 x1 x2 x3 x4 x5 (ix2 r j) = blkFn x0 x1 x2 x3 x4 x5 r j := by
  unfold out1_A_6
  rw [View.read_writes_eq_canon _ _ _ (cover1_A_6 c i arg1 harg1 arg2 harg2 arg3 harg3 arg4 harg4 arg5 harg5 arg6 harg6 arg7 harg7 x0 x1 x2 x3 x4 x5)]
  unfold kernelRun1_A
  dsimp only
  sl_unfold_words
  simp only [View.readAt_eq_ld, harg1.read_unread, harg2.read_unread, harg3.read_unread, harg4.read_unread,
    harg5.read_unread, harg6.read_unread, View.ld_unit_zero (S := S25000x64) hz, View.ld_unit_zero (S := S25000x10) hz,
    View.ld_unit_zero (S := S1x64) hz, View.ld_unit_zero (S := S1x10) hz, View.ld_unit_zero (S := S1x1) hz]
  refine (View.canon_apply_of_pieces
    (fun y : S25000x74.Idx => blkFn x0 x1 x2 x3 x4 x5 ⟨(y 0).val, (y 0).isLt⟩ ⟨(y 1).val, (y 1).isLt⟩) _ ?_ (ix2 r j) ?_).trans rfl
  · intro p hp
    simp only [List.mem_cons, List.mem_singleton, List.not_mem_nil, or_false] at hp
    rcases hp with rfl | rfl
    · intro (x : (⟨2, ![25000, 10]⟩ : Shape).Idx)
      obtain ⟨a, b, rfl⟩ : ∃ (a : Fin 25000) (b : Fin 10), x = ix2 a b := ⟨x 0, x 1, eq_ix2 x⟩
      show k1_pay3 x4 x5 x0 x2 x3 x1 (ix2 a b) = blkFn x0 x1 x2 x3 x4 x5 ⟨0 + 1 * a.val, _⟩ ⟨64 + 1 * b.val, _⟩
      unfold blkFn
      split
      · next h => exact absurd h (by show ¬ (64 + 1 * b.val < 64); omega)
      · exact congrArg (k1_pay3 x4 x5 x0 x2 x3 x1) (funext fun d => Fin.ext (by
          match d with
          | ⟨0, _⟩ => show a.val = 0 + 1 * a.val; omega
          | ⟨1, _⟩ => show b.val = 64 + 1 * b.val - 64; omega))
    · intro (x : (⟨2, ![25000, 64]⟩ : Shape).Idx)
      obtain ⟨a, b, rfl⟩ : ∃ (a : Fin 25000) (b : Fin 64), x = ix2 a b := ⟨x 0, x 1, eq_ix2 x⟩
      show k1_pay2 x4 x0 x2 x3 x0 (ix2 a b) = blkFn x0 x1 x2 x3 x4 x5 ⟨0 + 1 * a.val, _⟩ ⟨0 + 1 * b.val, _⟩
      unfold blkFn
      split
      · exact congrArg (k1_pay2 x4 x0 x2 x3 x0) (funext fun d => Fin.ext (by
          match d with
          | ⟨0, _⟩ => show a.val = 0 + 1 * a.val; omega
          | ⟨1, _⟩ => show b.val = 0 + 1 * b.val; omega))
      · next h => exact absurd (show 0 + 1 * b.val < 64 by have := b.isLt; omega) h
  · by_cases h : j.val < 64
    · refine ⟨_, List.mem_cons_of_mem _ List.mem_cons_self, ?_⟩
      rw [Rect.mem_set_unit]
      intro d
      match d with
      | ⟨0, _⟩ => show (0 : ℕ) ≤ r.val ∧ r.val < 0 + 25000; omega
      | ⟨1, _⟩ => show (0 : ℕ) ≤ j.val ∧ j.val < 0 + 64; omega
    · refine ⟨_, List.mem_cons_self, ?_⟩
      rw [Rect.mem_set_unit]
      intro d
      have hj := j.isLt
      match d with
      | ⟨0, _⟩ => show (0 : ℕ) ≤ r.val ∧ r.val < 0 + 25000; omega
      | ⟨1, _⟩ => show (64 : ℕ) ≤ j.val ∧ j.val < 64 + 10; omega
end Pieces

/-! ## A tile's block against the specification -/

/-- A tile's result block, row `r`, is the specification's row `p` once the six input blocks are the queries, the
    least distance, the scale and row `p` of the two arrays. -/
theorem blk_outK (x0 : Vec Ideal S1x64 .f32) (x1 : Vec Ideal S1x10 .f32) (x2 x3 : Vec Ideal S1x1 .f32)
    (x4 : Vec Ideal S25000x64 .f32) (x5 : Vec Ideal S25000x10 .f32)
    (a : Fin 2000000 → Fin 64 → EReal) (mm : Fin 2000000 → Fin 10 → EReal) (q : Fin 64 → EReal) (qc : Fin 10 → EReal)
    (d s : EReal) (r : Fin 25000) (p : Fin 2000000)
    (h0 : ∀ k, x0 (ix2 0 k) = q k) (h1 : ∀ k, x1 (ix2 0 k) = qc k) (h2 : x2 (ix2 0 0) = d) (h3 : x3 (ix2 0 0) = s)
    (h4 : ∀ k, x4 (ix2 r k) = a p k) (h5 : ∀ k, x5 (ix2 r k) = mm p k) (j : Fin 74) :
    blkFn x0 x1 x2 x3 x4 x5 r j = Terms.outK a mm q qc d s p j := by
  have hw : k1_pay1 x4 x0 x2 x3 (ix2 r (0 : Fin 1)) = Terms.wgtK a q d s p := by
    rw [pay1_apply]
    unfold Terms.wgtK Terms.dist
    simp only [h0, h2, h3, h4]
  unfold blkFn Terms.outK
  split
  · rw [pay2_apply, hw, h4, h0]
  · rw [pay3_apply, hw, h5, h1]

variable (V : (c : Dev nD) → (b : Ref sig .tc) → Buf (Elt Ideal) ((c : Thread nD τ).loc b))

/-- The address rows, the content rows, the two queries, the least distance and the scale as the region finds them. -/
abbrev aOf (c : Dev nD) : Fin 2000000 → Fin 64 → EReal := fun p k => (V c main_arg0 : S2000000x64.Idx → EReal) (ix2 p k)
abbrev mOf (c : Dev nD) : Fin 2000000 → Fin 10 → EReal := fun p k => (V c main_arg1 : S2000000x10.Idx → EReal) (ix2 p k)
abbrev qOf (c : Dev nD) : Fin 64 → EReal := fun k => (V c main_v0 : S1x64.Idx → EReal) (ix2 0 k)
abbrev qcOf (c : Dev nD) : Fin 10 → EReal := fun k => (V c main_v1 : S1x10.Idx → EReal) (ix2 0 k)
abbrev leastOf (c : Dev nD) : EReal := (V c main_v16 : S1x1.Idx → EReal) (ix2 0 0)
abbrev scaleOf (c : Dev nD) : EReal := (V c main_v17 : S1x1.Idx → EReal) (ix2 0 0)

/-! ## The windows' blocks at a point, as rows of the arrays -/

/-- The tiles' index maps over the grid: the four one-block windows stay at block (0, 0); the two row tiles and the
    result tile are at block (t, 0). -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The query row's block is the query row, at every point. -/
theorem iblk0_apply (c : Dev nD) (t : Fin cfg1.N) (k : Fin 64) :
    (iblk1 V c 0 t : Vec Ideal S1x64 .f32) (ix2 0 k) = (V c main_v0 : S1x64.Idx → EReal) (ix2 0 k) := by
  obtain ⟨e0, e1, -⟩ := idx_facts t
  unfold iblk1
  rw [View.read_apply]
  show V c main_v0 _ = V c main_v0 _
  congr 1
  funext a; apply Fin.ext
  match a with
  | ⟨0, _⟩ => show win1_0.index t (0 : Fin 2) * 1 + 1 * 0 = 0; rw [e0]
  | ⟨1, _⟩ => show win1_0.index t (1 : Fin 2) * 64 + 1 * k.val = k.val; rw [e1]; omega

/-- The query content row's block is the query content row, at every point. -/
theorem iblk1_apply (c : Dev nD) (t : Fin cfg1.N) (k : Fin 10) :
    (iblk1 V c 1 t : Vec Ideal S1x10 .f32) (ix2 0 k) = (V c main_v1 : S1x10.Idx → EReal) (ix2 0 k) := by
  obtain ⟨-, -, e0, e1, -⟩ := idx_facts t
  unfold iblk1
  rw [View.read_apply]
  show V c main_v1 _ = V c main_v1 _
  congr 1
  funext a; apply Fin.ext
  match a with
  | ⟨0, _⟩ => show win1_1.index t (0 : Fin 2) * 1 + 1 * 0 = 0; rw [e0]
  | ⟨1, _⟩ => show win1_1.index t (1 : Fin 2) * 10 + 1 * k.val = k.val; rw [e1]; omega

/-- The least distance's block is the least distance, at every point. -/
theorem iblk2_apply (c : Dev nD) (t : Fin cfg1.N) :
    (iblk1 V c 2 t : Vec Ideal S1x1 .f32) (ix2 0 0) = (V c main_v16 : S1x1.Idx → EReal) (ix2 0 0) := by
  obtain ⟨-, -, -, -, e0, e1, -⟩ := idx_facts t
  unfold iblk1
  rw [View.read_apply]
  show V c main_v16 _ = V c main_v16 _
  congr 1
  funext a; apply Fin.ext
  match a with
  | ⟨0, _⟩ => show win1_2.index t (0 : Fin 2) * 1 + 1 * 0 = 0; rw [e0]
  | ⟨1, _⟩ => show win1_2.index t (1 : Fin 2) * 1 + 1 * 0 = 0; rw [e1]

/-- The scale's block is the scale, at every point. -/
theorem iblk3_apply (c : Dev nD) (t : Fin cfg1.N) :
    (iblk1 V c 3 t : Vec Ideal S1x1 .f32) (ix2 0 0) = (V c main_v17 : S1x1.Idx → EReal) (ix2 0 0) := by
  obtain ⟨-, -, -, -, -, -, e0, e1, -⟩ := idx_facts t
  unfold iblk1
  rw [View.read_apply]
  show V c main_v17 _ = V c main_v17 _
  congr 1
  funext a; apply Fin.ext
  match a with
  | ⟨0, _⟩ => show win1_3.index t (0 : Fin 2) * 1 + 1 * 0 = 0; rw [e0]
  | ⟨1, _⟩ => show win1_3.index t (1 : Fin 2) * 1 + 1 * 0 = 0; rw [e1]

/-- Row `r` of the address tile at point `t` is row `25000 t + r` of the address array. -/
theorem iblk4_apply (c : Dev nD) (t : Fin cfg1.N) (r : Fin 25000) (k : Fin 64) (p : Fin 2000000)
    (hp : p.val = t.val * 25000 + r.val) :
    (iblk1 V c 4 t : Vec Ideal S25000x64 .f32) (ix2 r k) = (V c main_arg0 : S2000000x64.Idx → EReal) (ix2 p k) := by
  obtain ⟨-, -, -, -, -, -, -, -, e0, e1, -⟩ := idx_facts t
  unfold iblk1
  rw [View.read_apply]
  show V c main_arg0 _ = V c main_arg0 _
  congr 1
  funext a; apply Fin.ext
  match a with
  | ⟨0, _⟩ => show win1_4.index t (0 : Fin 2) * 25000 + 1 * r.val = p.val; rw [e0, hp]; omega
  | ⟨1, _⟩ => show win1_4.index t (1 : Fin 2) * 64 + 1 * k.val = k.val; rw [e1]; omega

/-- Row `r` of the content tile at point `t` is row `25000 t + r` of the content array. -/
theorem iblk5_apply (c : Dev nD) (t : Fin cfg1.N) (r : Fin 25000) (k : Fin 10) (p : Fin 2000000)
    (hp : p.val = t.val * 25000 + r.val) :
    (iblk1 V c 5 t : Vec Ideal S25000x10 .f32) (ix2 r k) = (V c main_arg1 : S2000000x10.Idx → EReal) (ix2 p k) := by
  obtain ⟨-, -, -, -, -, -, -, -, -, -, e0, e1, -⟩ := idx_facts t
  unfold iblk1
  rw [View.read_apply]
  show V c main_arg1 _ = V c main_arg1 _
  congr 1
  funext a; apply Fin.ext
  match a with
  | ⟨0, _⟩ => show win1_5.index t (0 : Fin 2) * 25000 + 1 * r.val = p.val; rw [e0, hp]; omega
  | ⟨1, _⟩ => show win1_5.index t (1 : Fin 2) * 10 + 1 * k.val = k.val; rw [e1]; omega

/-! ## From the tiles to the array -/

/-- The array the region leaves, entry by entry. -/
abbrev resultOf (c : Dev nD) : S2000000x74.Idx → EReal :=
  fun i => Terms.outK (aOf V c) (mOf V c) (qOf V c) (qcOf V c) (leastOf V c) (scaleOf V c) (i 0) (i 1)

/-- Entry `(r, j)` of the result tile at point `t` sits at `(25000 t + r, j)` of the result array. -/
theorem emb6 (t : Fin cfg1.N) (r : Fin 25000) (j : Fin 74) (p : Fin 2000000) (hp : p.val = t.val * 25000 + r.val) :
    ((cfg1.win 6).blk t).view.emb (ix2 r j) = (ix2 p j : S2000000x74.Idx) := by
  obtain ⟨-, -, -, -, -, -, -, -, -, -, -, -, e0, e1⟩ := idx_facts t
  funext a; apply Fin.ext
  match a with
  | ⟨0, _⟩ => show win1_6.index t (0 : Fin 2) * 25000 + 1 * r.val = p.val; rw [e0, hp]; omega
  | ⟨1, _⟩ => show win1_6.index t (1 : Fin 2) * 74 + 1 * j.val = j.val; rw [e1]; omega

/-- What point `t` writes back is tile `t` of the specification's array. -/
theorem flushed_eq (c : Dev nD) (t : Fin cfg1.N) :
    (dat1 V c).flushed 6 t = ((cfg1.win 6).blk t).view.read (Elt Ideal) (resultOf V c) := by
  show (cfg1.win 6).cut (grid1.coords t) ((dat1 V c).after 6 t) = _
  rw [after1_6]
  unfold outsAt1
  refine funext fun (y : S25000x74.Idx) => ?_
  obtain ⟨r, j, rfl⟩ : ∃ (r : Fin 25000) (j : Fin 74), y = ix2 r j := ⟨y 0, y 1, eq_ix2 y⟩
  have hN : cfg1.N = 80 := N_1
  have hp : t.val * 25000 + r.val < 2000000 := by have := t.isLt; have := r.isLt; omega
  refine (out1_apply (F := Ideal) c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) (iblk1 V c 0 t) (iblk1 V c 1 t) (iblk1 V c 2 t) (iblk1 V c 3 t)
    (iblk1 V c 4 t) (iblk1 V c 5 t) r j).trans ?_
  rw [View.read_apply, emb6 t r j ⟨t.val * 25000 + r.val, hp⟩ rfl]
  exact blk_outK (iblk1 V c 0 t) (iblk1 V c 1 t) (iblk1 V c 2 t) (iblk1 V c 3 t) (iblk1 V c 4 t) (iblk1 V c 5 t)
    (aOf V c) (mOf V c) (qOf V c) (qcOf V c) (leastOf V c) (scaleOf V c) r ⟨t.val * 25000 + r.val, hp⟩
    (fun k => iblk0_apply V c t k) (fun k => iblk1_apply V c t k) (iblk2_apply V c t) (iblk3_apply V c t)
    (fun k => iblk4_apply V c t r k ⟨t.val * 25000 + r.val, hp⟩ rfl)
    (fun k => iblk5_apply V c t r k ⟨t.val * 25000 + r.val, hp⟩ rfl) j

/-- An entry of the result array is in point `t`'s tile iff each coordinate is in the tile's range on its axis. -/
theorem mem_blk6 (t : Fin cfg1.N) (i : S2000000x74.Idx) :
    i ∈ ((cfg1.win 6).blk t).view.set
      ↔ ∀ a : Fin 2, win1_6.index t a * S25000x74.size a ≤ (i a).val ∧ (i a).val < win1_6.index t a * S25000x74.size a + S25000x74.size a := by
  show i ∈ ((View.whole main_v18).slice (win1_6.rect t)).set ↔ _
  rw [View.set_slice_whole, Rect.mem_set_unit]
  exact Iff.rfl

/-- Row `p` of the result array is in the tile of point `p / 25000`, which writes back. -/
theorem covered (i : S2000000x74.Idx) :
    ∃ t : Fin cfg1.N, (cfg1.win 6).flush t = true ∧ i ∈ ((cfg1.win 6).blk t).view.set := by
  have hN : cfg1.N = 80 := N_1
  have hi0 : (i 0).val < 2000000 := (i 0).isLt
  have hi1 : (i 1).val < 74 := (i 1).isLt
  have ht : (i 0).val / 25000 < cfg1.N := by rw [hN]; omega
  obtain ⟨-, -, -, -, -, -, -, -, -, -, -, -, e0, e1⟩ := idx_facts ⟨(i 0).val / 25000, ht⟩
  refine ⟨⟨(i 0).val / 25000, ht⟩, flush1_6 _, ?_⟩
  rw [mem_blk6]
  intro a
  match a with
  | ⟨0, _⟩ =>
    show win1_6.index ⟨(i 0).val / 25000, ht⟩ (0 : Fin 2) * 25000 ≤ (i 0).val
      ∧ (i 0).val < win1_6.index ⟨(i 0).val / 25000, ht⟩ (0 : Fin 2) * 25000 + 25000
    rw [e0]; show (i 0).val / 25000 * 25000 ≤ (i 0).val ∧ (i 0).val < (i 0).val / 25000 * 25000 + 25000; omega
  | ⟨1, _⟩ =>
    show win1_6.index ⟨(i 0).val / 25000, ht⟩ (1 : Fin 2) * 74 ≤ (i 1).val
      ∧ (i 1).val < win1_6.index ⟨(i 0).val / 25000, ht⟩ (1 : Fin 2) * 74 + 74
    rw [e1]; omega

/-- The result array after the region, entry by entry. -/
theorem final1 (c : Dev nD) :
    (dat1 V c).arrAt 6 cfg1.N
      = (fun i => Terms.outK (aOf V c) (mOf V c) (qOf V c) (qcOf V c) (leastOf V c) (scaleOf V c) (i 0) (i 1) : S2000000x74.Idx → EReal) :=
  (dat1 V c).arrAt_eq_of_cover 6 (resultOf V c) (fun t _ => flushed_eq V c t) covered

end Cert.KernelIdeal.Region1

end
-- ==== Proof.LibBlockedSum.lean ====
/-
  Sums cut into blocks.

  A sum over `n` terms, read in `B` blocks of `T` consecutive terms with `n ≤ B * T`, where the positions at or
  past `n` (the overhang of the last block) contribute the zero of the monoid.  The bookkeeping is done once on
  functions of a natural number: `ext0 g` extends `g : Fin n → α` by zero, the sum of `B` blocks of `T` is the sum
  over `range (B * T)` (`sum_blocks_range`), and the zero tail is dropped (`sum_range_ext0`).  `sum_blocks` is the
  statement over `Fin B` and `Fin T`; `sum_blocks_partial` / `sum_blocks_succ` are the partial sums over the first
  `k` blocks, the shape an induction over the block index wants.  Last, the masked product: a term whose first factor
  is masked to zero past `n` does not depend on its second factor there (`zero_mul` in the extended reals), so a
  blocked sum of masked products is the plain sum of products (`sum_blocks_masked_mul`).
-/
import Mathlib.Algebra.BigOperators.Fin
import Mathlib.Algebra.BigOperators.Group.Finset.Basic
import Mathlib.Data.EReal.Operations

open scoped BigOperators
open Finset

namespace Cert.LibBlockedSum

variable {α : Type*} [AddCommMonoid α]

/-- `g` extended by zero: `g ⟨i, _⟩` at `i < n`, zero from `n` on. -/
def ext0 {n : ℕ} (g : Fin n → α) (i : ℕ) : α := if h : i < n then g ⟨i, h⟩ else 0

/-- Below `n` the extension is `g`. -/
theorem ext0_of_lt {n : ℕ} (g : Fin n → α) {i : ℕ} (h : i < n) : ext0 g i = g ⟨i, h⟩ := dif_pos h

/-- From `n` on the extension is zero. -/
theorem ext0_of_le {n : ℕ} (g : Fin n → α) {i : ℕ} (h : n ≤ i) : ext0 g i = 0 := dif_neg (Nat.not_lt.mpr h)

/-- The extension at an index of `Fin n`. -/
theorem ext0_val {n : ℕ} (g : Fin n → α) (p : Fin n) : ext0 g p.val = g p := by
  rw [ext0_of_lt g p.isLt]

/-- One more block: the sum over `range ((k + 1) * T)` is the sum over `range (k * T)` plus block `k`. -/
theorem sum_range_succ_block (G : ℕ → α) (T k : ℕ) :
    ∑ i ∈ range ((k + 1) * T), G i = ∑ i ∈ range (k * T), G i + ∑ q ∈ range T, G (k * T + q) := by
  rw [Nat.succ_mul, sum_range_add]

/-- The sum of the first `k` blocks of `T` terms is the sum over `range (k * T)`. -/
theorem sum_blocks_range (G : ℕ → α) (T k : ℕ) :
    ∑ kk ∈ range k, ∑ q ∈ range T, G (kk * T + q) = ∑ i ∈ range (k * T), G i := by
  induction k with
  | zero => simp
  | succ k ih => rw [sum_range_succ, ih, sum_range_succ_block]

/-- A function that vanishes from `n` on has the same sum over any longer range. -/
theorem sum_range_of_zero_tail (G : ℕ → α) {n N : ℕ} (hN : n ≤ N) (hG : ∀ i, n ≤ i → G i = 0) :
    ∑ i ∈ range N, G i = ∑ i ∈ range n, G i := by
  obtain ⟨d, rfl⟩ := Nat.exists_eq_add_of_le hN
  rw [sum_range_add, sum_eq_zero (s := range d) (fun i _ => hG (n + i) (Nat.le_add_right n i)), add_zero]

/-- The extension by zero summed over a range that reaches `n` is the sum of `g`. -/
theorem sum_range_ext0 {n N : ℕ} (g : Fin n → α) (hN : n ≤ N) :
    ∑ i ∈ range N, ext0 g i = ∑ p : Fin n, g p := by
  rw [sum_range_of_zero_tail (ext0 g) hN (fun i hi => ext0_of_le g hi), Finset.sum_range]
  exact Finset.sum_congr rfl (fun p _ => ext0_val g p)

/-- The extension by zero summed over a range SHORT of `n` is the sum of `g` over the indices below the bound. -/
theorem sum_range_ext0_lt {n N : ℕ} (g : Fin n → α) (hN : N ≤ n) :
    ∑ i ∈ range N, ext0 g i = ∑ p ∈ univ.filter (fun p : Fin n => p.val < N), g p := by
  rw [Finset.sum_range, Finset.sum_filter]
  have h : ∀ i : Fin N, ext0 g i.val = g (Fin.castLE hN i) := fun i => ext0_of_lt g (lt_of_lt_of_le i.isLt hN)
  rw [Finset.sum_congr rfl (fun i _ => h i)]
  -- both sides are the sum of `ext0 g` cut at `N`, over `range n`
  have e1 : ∑ i : Fin N, g (Fin.castLE hN i) = ∑ i ∈ range N, ext0 g i := by
    rw [Finset.sum_range]; exact Finset.sum_congr rfl (fun i _ => (h i).symm)
  have e2 : ∑ p : Fin n, (if p.val < N then g p else 0) = ∑ i ∈ range n, (if i < N then ext0 g i else 0) := by
    rw [Finset.sum_range]; exact Finset.sum_congr rfl (fun p _ => by rw [ext0_val])
  rw [e1, e2]
  obtain ⟨d, rfl⟩ := Nat.exists_eq_add_of_le hN
  rw [sum_range_add]
  have z : ∑ x ∈ range d, (if N + x < N then ext0 g (N + x) else 0) = 0 :=
    sum_eq_zero (fun x _ => if_neg (by omega))
  rw [z, add_zero]
  exact Finset.sum_congr rfl (fun i hi => (if_pos (mem_range.mp hi)).symm)

/-- **A sum in blocks.**  With `n ≤ B * T`, the sum over `B` blocks of `T` lanes of the term at position
    `kk * T + q`, zero where that position is at or past `n`, is the sum of all `n` terms. -/
theorem sum_blocks {n B T : ℕ} (hn : n ≤ B * T) (g : Fin n → α) :
    ∑ kk : Fin B, ∑ q : Fin T, (if h : kk.val * T + q.val < n then g ⟨kk.val * T + q.val, h⟩ else 0)
      = ∑ p : Fin n, g p := by
  have h1 : ∀ kk : Fin B, ∑ q : Fin T, (if h : kk.val * T + q.val < n then g ⟨kk.val * T + q.val, h⟩ else 0)
      = ∑ q ∈ range T, ext0 g (kk.val * T + q) := fun kk => by
    rw [Finset.sum_range]; rfl
  rw [Finset.sum_congr rfl (fun kk _ => h1 kk),
    ← Finset.sum_range (fun kk => ∑ q ∈ range T, ext0 g (kk * T + q)), sum_blocks_range, sum_range_ext0 g hn]

/-- **The first `k` blocks.**  The partial sum over blocks `0 … k - 1` is the sum of the terms below `k * T` (and
    below `n`): the extension by zero summed over `range (k * T)`. -/
theorem sum_blocks_partial {n T : ℕ} (g : Fin n → α) (k : ℕ) :
    ∑ kk ∈ range k, ∑ q : Fin T, (if h : kk * T + q.val < n then g ⟨kk * T + q.val, h⟩ else 0)
      = ∑ i ∈ range (k * T), ext0 g i := by
  have h1 : ∀ kk : ℕ, ∑ q : Fin T, (if h : kk * T + q.val < n then g ⟨kk * T + q.val, h⟩ else 0)
      = ∑ q ∈ range T, ext0 g (kk * T + q) := fun kk => by
    rw [Finset.sum_range]; rfl
  rw [Finset.sum_congr rfl (fun kk _ => h1 kk), sum_blocks_range]

/-- **The induction step over the block index**: an accumulator that holds the terms below `k * T` and receives
    block `k` holds the terms below `(k + 1) * T`. -/
theorem sum_blocks_succ {n T : ℕ} (g : Fin n → α) (k : ℕ) (acc : α)
    (hacc : acc = ∑ i ∈ range (k * T), ext0 g i) :
    acc + ∑ q : Fin T, (if h : k * T + q.val < n then g ⟨k * T + q.val, h⟩ else 0)
      = ∑ i ∈ range ((k + 1) * T), ext0 g i := by
  have h1 : ∑ q : Fin T, (if h : k * T + q.val < n then g ⟨k * T + q.val, h⟩ else 0)
      = ∑ q ∈ range T, ext0 g (k * T + q) := by
    rw [Finset.sum_range]; rfl
  rw [hacc, h1, sum_range_succ_block]

/-- The accumulator before any block: the empty sum. -/
theorem sum_blocks_zero {n T : ℕ} (g : Fin n → α) : (0 : α) = ∑ i ∈ range (0 * T), ext0 g i := by
  simp

/-- After the last block (`n ≤ B * T`) the accumulator is the whole sum. -/
theorem sum_blocks_last {n B T : ℕ} (hn : n ≤ B * T) (g : Fin n → α) :
    ∑ i ∈ range (B * T), ext0 g i = ∑ p : Fin n, g p := sum_range_ext0 g hn

/-! ## Masked products in the extended reals -/

/-- In the extended reals zero times anything is zero: `0 * ⊤ = 0 * ⊥ = 0` by Mathlib's convention. -/
theorem ereal_zero_mul (d : EReal) : (0 : EReal) * d = 0 := zero_mul d

/-- A factor masked to zero makes the product zero whatever the other factor is. -/
theorem ereal_ite_zero_mul (c : Prop) [Decidable c] (a d : EReal) :
    (if c then a else 0) * d = if c then a * d else 0 := by
  split_ifs
  · rfl
  · exact zero_mul d

/-- The same with the mask as a dependent `if`. -/
theorem ereal_dite_zero_mul (c : Prop) [Decidable c] (a : c → EReal) (d : EReal) :
    (if h : c then a h else 0) * d = if h : c then a h * d else 0 := by
  split_ifs
  · rfl
  · exact zero_mul d

/-- **A blocked sum of masked products.**  With `n ≤ B * T`: the first factor is `a` at position `kk * T + q`,
    masked to zero at or past `n`; the second factor `d kk q` is ANY value past `n` and `w` at the position below
    `n`.  The blocked sum is `∑ₚ a p * w p`. -/
theorem sum_blocks_masked_mul {n B T : ℕ} (hn : n ≤ B * T) (a w : Fin n → EReal) (d : Fin B → Fin T → EReal)
    (hd : ∀ (kk : Fin B) (q : Fin T) (h : kk.val * T + q.val < n), d kk q = w ⟨kk.val * T + q.val, h⟩) :
    ∑ kk : Fin B, ∑ q : Fin T, (if h : kk.val * T + q.val < n then a ⟨kk.val * T + q.val, h⟩ else 0) * d kk q
      = ∑ p : Fin n, a p * w p := by
  rw [← sum_blocks hn (fun p => a p * w p)]
  refine Finset.sum_congr rfl (fun kk _ => Finset.sum_congr rfl (fun q _ => ?_))
  rw [ereal_dite_zero_mul]
  by_cases h : kk.val * T + q.val < n
  · rw [dif_pos h, dif_pos h, hd kk q h]
  · rw [dif_neg h, dif_neg h]

end Cert.LibBlockedSum
-- ==== Proof.LibOnlineSoftmax.lean ====
/-
  The online softmax: one pass over the tiles of a row keeps a running maximum `m` and a running sum
  `l = ∑ exp (x - m)` over the entries seen so far, rescaling the sum by `exp (m - m')` whenever the maximum moves
  to `m'`.

  Over the reals nothing depends on `m` being the maximum: `exp (m - m') * exp (x - m) = exp (x - m')`
  (`exp_shift_mul`), so the recurrence `l' = exp (m - m') * l + ∑_{tile} exp (x - m')` keeps the invariant
  `l = ∑_{seen} exp (x - m)` for ANY next value `m'` (`online_step_real`), and a softmax normalised at any shift is
  the softmax normalised at any other (`softmax_shift`); the sums are positive (`sum_exp_pos`).  What the running
  maximum buys is only that the numbers stay small, which is invisible here.

  The programs compute in the extended reals.  On FINITE entries (coerced reals) every operation involved returns
  a coerced real: the coercion commutes with finite sums (`coe_finset_sum`), with `max` and with the maximum of a
  nonempty family (`sup_coe`, `fold_max_bot_coe`), `exp` of a difference of reals is the real exponential
  (`ideal_exp_sub_coe`), and a quotient by a nonzero real is the real quotient (`ideal_div_coe`).  `online_step`
  is the induction step in the extended reals, stated so that "the valid entries of this tile" may be ANY finset
  `t` disjoint from the entries seen and the tile's sum ANY term proved equal to `∑_{t} exp (x - m')`;
  `online_init` starts it at a finite stand-in for `-∞` and the zero sum; `softmax_shift_ereal` is the conclusion:
  `exp (x - m) / l` with `l = ∑ exp (x - m)` is `exp (x - M) / ∑ exp (x - M)` for every real `M`, the true maximum
  among them.
-/
import Mathlib.Analysis.SpecialFunctions.Exp
import Mathlib.Data.EReal.Inv
import Idealize.ShloMosaic.PureOps.Ideal

open scoped BigOperators
open Finset

namespace Cert.LibOnlineSoftmax

open Idealize.ShloMosaic

variable {ι : Type*}

/-! ## Over the reals -/

/-- Rescaling an exponential from the shift `m` to the shift `m'`. -/
theorem exp_shift_mul (x m m' : ℝ) : Real.exp (m - m') * Real.exp (x - m) = Real.exp (x - m') := by
  rw [← Real.exp_add]; congr 1; ring

/-- **The step of the recurrence.**  If `l` is the sum of `exp (x - m)` over the entries `S` seen so far, and the
    tile brings the entries `t` (disjoint from `S`) with sum `s` of `exp (x - m')`, then
    `exp (m - m') * l + s` is the sum of `exp (x - m')` over `S ∪ t` — for any `m'`. -/
theorem online_step_real [DecidableEq ι] (x : ι → ℝ) (S t : Finset ι) (hd : Disjoint S t) (m m' l s : ℝ)
    (hl : l = ∑ p ∈ S, Real.exp (x p - m)) (hs : s = ∑ p ∈ t, Real.exp (x p - m')) :
    Real.exp (m - m') * l + s = ∑ p ∈ S ∪ t, Real.exp (x p - m') := by
  rw [hl, hs, Finset.mul_sum, Finset.sum_union hd]
  congr 1
  exact Finset.sum_congr rfl (fun p _ => exp_shift_mul (x p) m m')

/-- A sum of exponentials over a nonempty set is positive. -/
theorem sum_exp_pos (x : ι → ℝ) (s : Finset ι) (hs : s.Nonempty) (m : ℝ) :
    0 < ∑ q ∈ s, Real.exp (x q - m) :=
  Finset.sum_pos (fun q _ => Real.exp_pos _) hs

/-- **Shift invariance of the softmax**: normalising at `m` or at `M` gives the same quotient. -/
theorem softmax_shift (x : ι → ℝ) (s : Finset ι) (m M : ℝ) (p : ι) :
    Real.exp (x p - m) / ∑ q ∈ s, Real.exp (x q - m) = Real.exp (x p - M) / ∑ q ∈ s, Real.exp (x q - M) := by
  have h : ∀ q, Real.exp (x q - m) = Real.exp (M - m) * Real.exp (x q - M) := fun q =>
    (exp_shift_mul (x q) M m).symm
  rw [h p, Finset.sum_congr rfl (fun q _ => h q), ← Finset.mul_sum,
    mul_div_mul_left _ _ (Real.exp_pos (M - m)).ne']

/-! ## The coercion to the extended reals -/

/-- The coercion commutes with finite sums. -/
theorem coe_finset_sum (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The coercion commutes with `max`. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The maximum from `⊥` of a nonempty family of reals is the coercion of its real maximum. -/
theorem sup_coe (s : Finset ι) (hs : s.Nonempty) (f : ι → ℝ) :
    s.sup (fun i => (f i : EReal)) = ((s.sup' hs f : ℝ) : EReal) := by
  apply le_antisymm
  · exact Finset.sup_le (fun i hi => EReal.coe_le_coe_iff.mpr (Finset.le_sup' f hi))
  · obtain ⟨i, hi, h⟩ := Finset.exists_mem_eq_sup' hs f
    rw [h]; exact Finset.le_sup (f := fun i => (f i : EReal)) hi

/-- The same as a fold of `max` from `⊥`, the form a reduction over a set of lanes takes. -/
theorem fold_max_bot_coe (s : Finset ι) (hs : s.Nonempty) (f : ι → ℝ) :
    s.fold max ⊥ (fun i => (f i : EReal)) = ((s.sup' hs f : ℝ) : EReal) :=
  sup_coe s hs f

/-- So such a maximum is finite: it is SOME real. -/
theorem exists_fold_max_bot_coe (s : Finset ι) (hs : s.Nonempty) (f : ι → ℝ) :
    ∃ c : ℝ, s.fold max ⊥ (fun i => (f i : EReal)) = (c : EReal) :=
  ⟨_, fold_max_bot_coe s hs f⟩

/-- `exp` of a difference of reals, in the extended reals, is the real exponential. -/
theorem ideal_exp_sub_coe (a b : ℝ) : Ideal.exp ((a : EReal) - (b : EReal)) = ((Real.exp (a - b) : ℝ) : EReal) := by
  rw [← EReal.coe_sub, Ideal.exp_coe]

/-- A quotient by a nonzero real, in the extended reals, is the real quotient. -/
theorem ideal_div_coe (a b : ℝ) (hb : b ≠ 0) : Ideal.div (a : EReal) (b : EReal) = ((a / b : ℝ) : EReal) := by
  rw [Ideal.div_coe hb, ← EReal.coe_mul, mul_one_div]

/-- A sum of `exp (x - m)` in the extended reals is the coercion of the real sum. -/
theorem sum_ideal_exp_sub_coe (x : ι → ℝ) (s : Finset ι) (m : ℝ) :
    ∑ q ∈ s, Ideal.exp ((x q : EReal) - (m : EReal)) = ((∑ q ∈ s, Real.exp (x q - m) : ℝ) : EReal) := by
  rw [coe_finset_sum]; exact Finset.sum_congr rfl (fun q _ => ideal_exp_sub_coe (x q) m)

/-! ## The recurrence in the extended reals -/

/-- **The start**: a finite stand-in `NEG` for `-∞` as the maximum, zero as the sum, nothing seen. -/
theorem online_init (x : ι → ℝ) (NEG : ℝ) :
    ∃ mr : ℝ, ((NEG : ℝ) : EReal) = (mr : EReal) ∧ (0 : EReal) = ((∑ p ∈ (∅ : Finset ι), Real.exp (x p - mr) : ℝ) : EReal) :=
  ⟨NEG, rfl, by simp⟩

/-- **The step in the extended reals.**  `m`, `l` are the running maximum and sum before the tile, with the
    invariant: `m` is a real and `l` is the sum of `exp (x - m)` over the entries `S` seen.  The tile's maximum `c`
    is a real (whatever it is the maximum of), the new maximum is `max m c`, and the tile's sum `s` is the sum of
    `exp (x - max m c)` over the tile's valid entries `t`.  Then the invariant holds of `max m c`,
    `exp (m - max m c) * l + s` and `S ∪ t`. -/
theorem online_step [DecidableEq ι] (x : ι → ℝ) (S t : Finset ι) (hd : Disjoint S t) (m l c s : EReal)
    (hinv : ∃ mr : ℝ, m = (mr : EReal) ∧ l = ((∑ p ∈ S, Real.exp (x p - mr) : ℝ) : EReal))
    (hc : ∃ cr : ℝ, c = (cr : EReal))
    (hs : ∀ mr' : ℝ, max m c = (mr' : EReal) → s = ((∑ p ∈ t, Real.exp (x p - mr') : ℝ) : EReal)) :
    ∃ mr' : ℝ, max m c = (mr' : EReal) ∧
      Ideal.exp (m - max m c) * l + s = ((∑ p ∈ S ∪ t, Real.exp (x p - mr') : ℝ) : EReal) := by
  obtain ⟨mr, rfl, rfl⟩ := hinv
  obtain ⟨cr, rfl⟩ := hc
  have hm : max (mr : EReal) (cr : EReal) = ((max mr cr : ℝ) : EReal) := (coe_max mr cr).symm
  refine ⟨max mr cr, hm, ?_⟩
  rw [hs _ hm, hm, ideal_exp_sub_coe, ← EReal.coe_mul, ← EReal.coe_add,
    online_step_real x S t hd mr (max mr cr) _ _ rfl rfl]

/-- The running maximum never falls below its start: with `NEG ≤ m`, joining `NEG` to a tile's maximum (the masked
    lanes of an overhanging tile hold `NEG`) does not change the new maximum. -/
theorem max_max_of_le {α : Type*} [LinearOrder α] (m c NEG : α) (h : NEG ≤ m) : max m (max c NEG) = max m c := by
  rw [← max_assoc, max_comm m c, max_assoc, max_eq_left h]

/-! ## The conclusion -/

/-- **The softmax from the statistics.**  With `l = ∑ exp (x - m)` over a nonempty set at ANY real shift `m`,
    `exp (x p - m) / l` in the extended reals is `exp (x p - M) / ∑ exp (x - M)` at any other real shift `M`. -/
theorem softmax_shift_ereal (x : ι → ℝ) (s : Finset ι) (hs : s.Nonempty) (m M : ℝ) (p : ι) :
    Ideal.div (Ideal.exp ((x p : EReal) - (m : EReal))) ((∑ q ∈ s, Real.exp (x q - m) : ℝ) : EReal)
      = Ideal.div (Ideal.exp ((x p : EReal) - (M : EReal))) (∑ q ∈ s, Ideal.exp ((x q : EReal) - (M : EReal))) := by
  rw [sum_ideal_exp_sub_coe, ideal_exp_sub_coe, ideal_exp_sub_coe,
    ideal_div_coe _ _ (sum_exp_pos x s hs m).ne', ideal_div_coe _ _ (sum_exp_pos x s hs M).ne',
    softmax_shift x s m M p]

/-- The same with the reference's shift spelled as it computes it: the maximum from `⊥` of the (finite) entries. -/
theorem softmax_shift_sup (x : ι → ℝ) (s : Finset ι) (hs : s.Nonempty) (m : ℝ) (p : ι) :
    Ideal.div (Ideal.exp ((x p : EReal) - (m : EReal))) ((∑ q ∈ s, Real.exp (x q - m) : ℝ) : EReal)
      = Ideal.div (Ideal.exp ((x p : EReal) - s.sup (fun q => (x q : EReal))))
          (∑ q ∈ s, Ideal.exp ((x q : EReal) - s.sup (fun q => (x q : EReal)))) := by
  rw [sup_coe s hs x]; exact softmax_shift_ereal x s hs m _ p

end Cert.LibOnlineSoftmax
-- ==== Proof.LibSoftmaxTiles.lean ====
/-
  The online softmax over the TILES of a row.

  A row of length `n` is read in tiles of `B` consecutive lanes; the last tile may overhang the row, and its lanes
  at or past `n` are masked.  `seen n B v` is the set of entries before tile `v` and `tile n B v` the set of entries
  in it; they are disjoint, `seen` grows by one tile at a time, and after `T` tiles with `n ≤ T * B` everything has
  been seen.  A sum over a tile's lanes that is zero on the masked lanes is the sum over the tile's entries
  (`sum_lanes_eq_tile`).

  Two forms of the pass over the tiles are given.

  * PARAMETRIC (`online_inv`, `online_run`, `softmax_of_run`): any two sequences `m`, `l` of extended reals that start at a finite
    stand-in for `-∞` and zero, and move at tile `v` to `max (m v) c` and `exp (m v - max (m v) c) * l v + s` where the
    tile's maximum `c` is finite and the tile's sum `s` is the sum of `exp (x - max (m v) c)` over `tile n B v` —
    whatever terms `c` and `s` are.  `exists_fold_max_bot_of_finite` discharges the first hypothesis for a maximum from `⊥` over finite
    lanes; `tileSum_coe_terms` (term by term), `tileSum_coe_mask` (any decidable mask) and `tileSum_coe_of` (the mask
    `v * B + q < n` itself) discharge the second for a masked sum over lanes.
  * CONCRETE (`stats`, `stats_last`, `softmax_of_stats`): the lanes spelled with a dependent `if` on the position,
    the stand-in on the masked lanes of the maximum and zero on the masked lanes of the sum.

  Either way the conclusion is that `exp (x p - m) / l` at the final statistics is the row's softmax at `p`
  normalised at its maximum from `⊥`, the reference's own spelling.
-/
import proofs.«172311_j70351564308696_1_alg».proof.Proof.LibBlockedSum
import proofs.«172311_j70351564308696_1_alg».proof.Proof.LibOnlineSoftmax

noncomputable section

open scoped BigOperators
open Finset

namespace Cert.LibSoftmaxTiles

open Idealize.ShloMosaic
open Cert.LibBlockedSum (ext0 ext0_val ext0_of_le ext0_of_lt)
open Cert.LibOnlineSoftmax

/-! ## Tiles of a row: the finsets -/

variable {n : ℕ}

/-- The entries of a row of length `n` that lie before tile `v` (tiles of width `B`). -/
def seen (n B v : ℕ) : Finset (Fin n) := univ.filter (fun p => p.val < v * B)

/-- The entries of a row of length `n` that lie in tile `v`: positions `v * B ≤ p < (v + 1) * B` (and below `n`). -/
def tile (n B v : ℕ) : Finset (Fin n) := univ.filter (fun p => v * B ≤ p.val ∧ p.val < (v + 1) * B)

theorem mem_seen {B v : ℕ} {p : Fin n} : p ∈ seen n B v ↔ p.val < v * B := by
  simp [seen]

theorem mem_tile {B v : ℕ} {p : Fin n} : p ∈ tile n B v ↔ v * B ≤ p.val ∧ p.val < (v + 1) * B := by
  simp [tile]

/-- Nothing lies before the first tile. -/
theorem seen_zero (B : ℕ) : seen n B 0 = ∅ := by
  ext p; simp [mem_seen]

/-- Before tile `v + 1` lie the entries before tile `v` and those of tile `v`. -/
theorem seen_succ (B v : ℕ) : seen n B (v + 1) = seen n B v ∪ tile n B v := by
  ext p
  rw [Finset.mem_union, mem_seen, mem_seen, mem_tile]
  constructor
  · intro h
    by_cases h' : p.val < v * B
    · exact Or.inl h'
    · exact Or.inr ⟨Nat.le_of_not_lt h', h⟩
  · rintro (h | ⟨_, h⟩)
    · exact lt_of_lt_of_le h (Nat.mul_le_mul_right B (Nat.le_succ v))
    · exact h

/-- A tile is disjoint from what lies before it. -/
theorem disjoint_seen_tile (B v : ℕ) : Disjoint (seen n B v) (tile n B v) := by
  rw [Finset.disjoint_left]
  intro p hp hq
  exact absurd (mem_seen.mp hp) (Nat.not_lt.mpr (mem_tile.mp hq).1)

/-- Once the tiles cover the row everything has been seen. -/
theorem seen_last {B T : ℕ} (hn : n ≤ T * B) : seen n B T = univ := by
  ext p; simp only [mem_seen, Finset.mem_univ, iff_true]; exact lt_of_lt_of_le p.isLt hn

/-- **A tile's lanes.**  The sum over the `B` lanes of tile `v` of the term at position `v * B + q`, zero on the
    lanes at or past `n`, is the sum over the tile's entries. -/
theorem sum_lanes_eq_tile {α : Type*} [AddCommMonoid α] (F : Fin n → α) (B v : ℕ) :
    ∑ q : Fin B, (if h : v * B + q.val < n then F ⟨v * B + q.val, h⟩ else 0) = ∑ p ∈ tile n B v, F p := by
  have h1 : ∑ q : Fin B, (if h : v * B + q.val < n then F ⟨v * B + q.val, h⟩ else 0)
      = ∑ q ∈ range B, ext0 F (v * B + q) := by
    rw [Finset.sum_range]; rfl
  have hB : (v + 1) * B - v * B = B := by rw [Nat.succ_mul]; omega
  have h2 : ∑ q ∈ range B, ext0 F (v * B + q) = ∑ i ∈ Ico (v * B) ((v + 1) * B), ext0 F i := by
    rw [Finset.sum_Ico_eq_sum_range, hB]
  have h3 : ∑ p ∈ tile n B v, F p = ∑ i ∈ (tile n B v).map Fin.valEmbedding, ext0 F i := by
    rw [Finset.sum_map]; exact Finset.sum_congr rfl (fun p _ => (ext0_val F p).symm)
  rw [h1, h2, h3]
  symm
  apply Finset.sum_subset
  · intro i hi
    obtain ⟨p, hp, rfl⟩ := Finset.mem_map.mp hi
    exact Finset.mem_Ico.mpr (mem_tile.mp hp)
  · intro i hi hni
    apply ext0_of_le
    by_contra hlt
    have hlt' : i < n := Nat.lt_of_not_le hlt
    exact hni (Finset.mem_map.mpr ⟨⟨i, hlt'⟩, mem_tile.mpr (Finset.mem_Ico.mp hi), rfl⟩)

/-! ## The statistics, tile by tile, with the lanes spelled as a kernel spells them -/

/-- Lane `q` of tile `v`: the entry at position `v * B + q`, and the stand-in `NEG` on the lanes at or past `n`. -/
def lane (x : Fin n → EReal) (NEG : EReal) (B v : ℕ) (q : Fin B) : EReal :=
  if h : v * B + q.val < n then x ⟨v * B + q.val, h⟩ else NEG

/-- The maximum from `⊥` over the lanes of tile `v`. -/
def tileMax (x : Fin n → EReal) (NEG : EReal) (B v : ℕ) : EReal := (univ : Finset (Fin B)).fold max ⊥ (lane x NEG B v)

/-- The sum over the lanes of tile `v` of `exp (lane - m')`, zero on the lanes at or past `n`. -/
def tileSum (x : Fin n → EReal) (NEG : EReal) (B v : ℕ) (m' : EReal) : EReal :=
  ∑ q : Fin B, if v * B + q.val < n then Ideal.exp (lane x NEG B v q - m') else 0

/-- The running maximum and sum after `v` tiles: from `(NEG, 0)`, each tile moves the maximum to
    `m' = max m (tileMax)` and the sum to `exp (m - m') * l + tileSum m'`. -/
def stats (x : Fin n → EReal) (NEG : EReal) (B : ℕ) : ℕ → EReal × EReal
  | 0 => (NEG, 0)
  | v + 1 =>
    ((max (stats x NEG B v).1 (tileMax x NEG B v)),
      Ideal.exp ((stats x NEG B v).1 - max (stats x NEG B v).1 (tileMax x NEG B v)) * (stats x NEG B v).2
        + tileSum x NEG B v (max (stats x NEG B v).1 (tileMax x NEG B v)))

theorem stats_zero (x : Fin n → EReal) (NEG : EReal) (B : ℕ) : stats x NEG B 0 = (NEG, 0) := rfl

theorem stats_succ (x : Fin n → EReal) (NEG : EReal) (B v : ℕ) :
    stats x NEG B (v + 1) =
      ((max (stats x NEG B v).1 (tileMax x NEG B v)),
        Ideal.exp ((stats x NEG B v).1 - max (stats x NEG B v).1 (tileMax x NEG B v)) * (stats x NEG B v).2
          + tileSum x NEG B v (max (stats x NEG B v).1 (tileMax x NEG B v))) := rfl

/-- On finite entries and a finite stand-in every lane is a coerced real. -/
theorem lane_coe (x : Fin n → ℝ) (NEG : ℝ) (B v : ℕ) (q : Fin B) :
    lane (fun p => (x p : EReal)) (NEG : EReal) B v q
      = (((if h : v * B + q.val < n then x ⟨v * B + q.val, h⟩ else NEG) : ℝ) : EReal) := by
  unfold lane; split_ifs <;> rfl

/-- So a tile's maximum is a coerced real (the tile has a lane). -/
theorem exists_tileMax_coe (x : Fin n → ℝ) (NEG : ℝ) {B : ℕ} (hB : 0 < B) (v : ℕ) :
    ∃ cr : ℝ, tileMax (fun p => (x p : EReal)) (NEG : EReal) B v = (cr : EReal) := by
  have hne : (univ : Finset (Fin B)).Nonempty := ⟨⟨0, hB⟩, Finset.mem_univ _⟩
  obtain ⟨c, hc⟩ := exists_fold_max_bot_coe (univ : Finset (Fin B)) hne
    (fun q => if h : v * B + q.val < n then x ⟨v * B + q.val, h⟩ else NEG)
  refine ⟨c, ?_⟩
  rw [← hc, tileMax]
  congr 1
  funext q
  exact lane_coe x NEG B v q

/-- A tile's sum at a real shift is the coerced sum over the tile's entries. -/
theorem tileSum_coe (x : Fin n → ℝ) (NEG : ℝ) (B v : ℕ) (mr' : ℝ) :
    tileSum (fun p => (x p : EReal)) (NEG : EReal) B v (mr' : EReal)
      = ((∑ p ∈ tile n B v, Real.exp (x p - mr') : ℝ) : EReal) := by
  rw [← sum_ideal_exp_sub_coe, ← sum_lanes_eq_tile (fun p => Ideal.exp ((x p : EReal) - (mr' : EReal))) B v, tileSum]
  refine Finset.sum_congr rfl (fun q _ => ?_)
  by_cases h : v * B + q.val < n
  · rw [if_pos h, dif_pos h, lane, dif_pos h]
  · rw [if_neg h, dif_neg h]

/-- **The invariant after `v` tiles**: the running maximum is a real `mr` and the running sum is the sum of
    `exp (x - mr)` over the entries before tile `v`. -/
theorem stats_seen (x : Fin n → ℝ) (NEG : ℝ) {B : ℕ} (hB : 0 < B) (v : ℕ) :
    ∃ mr : ℝ, (stats (fun p => (x p : EReal)) (NEG : EReal) B v).1 = (mr : EReal) ∧
      (stats (fun p => (x p : EReal)) (NEG : EReal) B v).2 = ((∑ p ∈ seen n B v, Real.exp (x p - mr) : ℝ) : EReal) := by
  induction v with
  | zero =>
    refine ⟨NEG, rfl, ?_⟩
    rw [stats_zero, seen_zero]; simp
  | succ v ih =>
    rw [stats_succ, seen_succ]
    exact online_step x (seen n B v) (tile n B v) (disjoint_seen_tile B v) _ _ _ _ ih
      (exists_tileMax_coe x NEG hB v) (fun mr' h => by rw [h, tileSum_coe])

/-- **After the last tile** (`n ≤ T * B`): the maximum is a real `mr` and the sum is `∑ₚ exp (x p - mr)`. -/
theorem stats_last (x : Fin n → ℝ) (NEG : ℝ) {B T : ℕ} (hB : 0 < B) (hn : n ≤ T * B) :
    ∃ mr : ℝ, (stats (fun p => (x p : EReal)) (NEG : EReal) B T).1 = (mr : EReal) ∧
      (stats (fun p => (x p : EReal)) (NEG : EReal) B T).2 = ((∑ p, Real.exp (x p - mr) : ℝ) : EReal) := by
  obtain ⟨mr, h1, h2⟩ := stats_seen x NEG hB T
  exact ⟨mr, h1, by rw [h2, seen_last hn]⟩

/-- **The softmax from the statistics**: `exp (x p - m) / l` with `(m, l)` the statistics after the last tile is the
    softmax of the row at `p`, normalised at the row's maximum from `⊥`. -/
theorem softmax_of_stats (x : Fin n → ℝ) (NEG : ℝ) {B T : ℕ} (hB : 0 < B) (hn : n ≤ T * B) (p : Fin n) :
    Ideal.div (Ideal.exp ((x p : EReal) - (stats (fun p => (x p : EReal)) (NEG : EReal) B T).1))
        (stats (fun p => (x p : EReal)) (NEG : EReal) B T).2
      = Ideal.div (Ideal.exp ((x p : EReal) - univ.sup (fun q => (x q : EReal))))
          (∑ q, Ideal.exp ((x q : EReal) - univ.sup (fun q => (x q : EReal)))) := by
  obtain ⟨mr, h1, h2⟩ := stats_last x NEG hB hn
  rw [h1, h2]
  exact softmax_shift_sup x univ ⟨p, Finset.mem_univ p⟩ mr p

/-! ## The parametric pass -/

/-- A maximum from `⊥` over a nonempty family of FINITE extended reals is finite. -/
theorem exists_fold_max_bot_of_finite {ι : Type*} (s : Finset ι) (hs : s.Nonempty) (f : ι → EReal)
    (hf : ∀ i, ∃ r : ℝ, f i = (r : EReal)) : ∃ c : ℝ, s.fold max ⊥ f = (c : EReal) := by
  choose g hg using hf
  have : f = fun i => (g i : EReal) := funext hg
  rw [this]
  exact exists_fold_max_bot_coe s hs g

/-- A masked sum over the lanes of tile `v`: the lanes `f` hold the row's entries at the positions below `n`
    (anything past it), each valid lane contributes `exp (f q - m')` and each masked lane zero.  At a real shift
    the sum is the coerced sum of `exp (x - m')` over the tile's entries. -/
theorem tileSum_coe_of (x : Fin n → ℝ) (B v : ℕ) (f : Fin B → EReal)
    (hf : ∀ (q : Fin B) (h : v * B + q.val < n), f q = (x ⟨v * B + q.val, h⟩ : EReal)) (mr' : ℝ) :
    (∑ q : Fin B, if v * B + q.val < n then Ideal.exp (f q - (mr' : EReal)) else 0)
      = ((∑ p ∈ tile n B v, Real.exp (x p - mr') : ℝ) : EReal) := by
  rw [← sum_ideal_exp_sub_coe, ← sum_lanes_eq_tile (fun p => Ideal.exp ((x p : EReal) - (mr' : EReal))) B v]
  refine Finset.sum_congr rfl (fun q _ => ?_)
  by_cases h : v * B + q.val < n
  · rw [if_pos h, dif_pos h, hf q h]
  · rw [if_neg h, dif_neg h]

/-- A sum over the lanes of tile `v` given term by term: on a lane below `n` the term is `exp (x - m')` at that
    position, on a lane at or past `n` it is zero — however the terms are written.  At a real shift the sum is the
    coerced sum of `exp (x - m')` over the tile's entries. -/
theorem tileSum_coe_terms (x : Fin n → ℝ) (B v : ℕ) (mr' : ℝ) (term : Fin B → EReal)
    (hvalid : ∀ (q : Fin B) (h : v * B + q.val < n),
      term q = Ideal.exp ((x ⟨v * B + q.val, h⟩ : EReal) - (mr' : EReal)))
    (hmasked : ∀ q : Fin B, ¬ v * B + q.val < n → term q = 0) :
    ∑ q : Fin B, term q = ((∑ p ∈ tile n B v, Real.exp (x p - mr') : ℝ) : EReal) := by
  rw [← sum_ideal_exp_sub_coe, ← sum_lanes_eq_tile (fun p => Ideal.exp ((x p : EReal) - (mr' : EReal))) B v]
  refine Finset.sum_congr rfl (fun q _ => ?_)
  by_cases h : v * B + q.val < n
  · rw [dif_pos h, hvalid q h]
  · rw [dif_neg h, hmasked q h]

/-- The same with the mask as any decidable predicate on the lanes that says "the position is below `n`". -/
theorem tileSum_coe_mask (x : Fin n → ℝ) (B v : ℕ) (mr' : ℝ) (valid : Fin B → Prop) [DecidablePred valid]
    (hv : ∀ q : Fin B, valid q ↔ v * B + q.val < n) (f : Fin B → EReal)
    (hf : ∀ (q : Fin B) (h : v * B + q.val < n), f q = (x ⟨v * B + q.val, h⟩ : EReal)) :
    (∑ q : Fin B, if valid q then Ideal.exp (f q - (mr' : EReal)) else 0)
      = ((∑ p ∈ tile n B v, Real.exp (x p - mr') : ℝ) : EReal) :=
  tileSum_coe_terms x B v mr' _
    (fun q h => by rw [if_pos ((hv q).mpr h), hf q h])
    (fun q h => if_neg (fun hq => h ((hv q).mp hq)))

/-- **The invariant of the pass, parametric in the per-tile terms.**  `m 0` is finite, `l 0 = 0`; at each tile
    `v < T` there are a finite `c` and an `s` with `m (v + 1) = max (m v) c`,
    `l (v + 1) = exp (m v - max (m v) c) * l v + s`, and `s` the sum of `exp (x - max (m v) c)` over the tile's
    entries.  Then after `v ≤ T` tiles `m v` is a real `mr` and `l v` is the sum of `exp (x - mr)` over the entries
    before tile `v`. -/
theorem online_inv (x : Fin n → ℝ) (B T : ℕ) (m l : ℕ → EReal)
    (hm0 : ∃ NEG : ℝ, m 0 = (NEG : EReal)) (hl0 : l 0 = 0)
    (hstep : ∀ v, v < T → ∃ c s : EReal, (∃ cr : ℝ, c = (cr : EReal)) ∧ m (v + 1) = max (m v) c ∧
      l (v + 1) = Ideal.exp (m v - max (m v) c) * l v + s ∧
      ∀ mr' : ℝ, max (m v) c = (mr' : EReal) → s = ((∑ p ∈ tile n B v, Real.exp (x p - mr') : ℝ) : EReal)) :
    ∀ v, v ≤ T → ∃ mr : ℝ, m v = (mr : EReal) ∧
      l v = ((∑ p ∈ seen n B v, Real.exp (x p - mr) : ℝ) : EReal) := by
  intro v
  induction v with
  | zero =>
    intro _
    obtain ⟨NEG, h⟩ := hm0
    refine ⟨NEG, h, ?_⟩
    rw [hl0, seen_zero]; simp
  | succ v ih =>
    intro hv
    obtain ⟨c, s, hc, hm, hl, hs⟩ := hstep v (Nat.lt_of_succ_le hv)
    rw [hm, hl, seen_succ]
    exact online_step x (seen n B v) (tile n B v) (disjoint_seen_tile B v) _ _ _ _
      (ih (Nat.le_of_succ_le hv)) hc hs

/-- **The pass over the tiles, parametric in the per-tile terms**: under `online_inv`'s hypotheses, after the last
    tile (`n ≤ T * B`) `m T` is a real `mr` and `l T = ∑ₚ exp (x p - mr)`. -/
theorem online_run (x : Fin n → ℝ) (B T : ℕ) (hn : n ≤ T * B) (m l : ℕ → EReal)
    (hm0 : ∃ NEG : ℝ, m 0 = (NEG : EReal)) (hl0 : l 0 = 0)
    (hstep : ∀ v, v < T → ∃ c s : EReal, (∃ cr : ℝ, c = (cr : EReal)) ∧ m (v + 1) = max (m v) c ∧
      l (v + 1) = Ideal.exp (m v - max (m v) c) * l v + s ∧
      ∀ mr' : ℝ, max (m v) c = (mr' : EReal) → s = ((∑ p ∈ tile n B v, Real.exp (x p - mr') : ℝ) : EReal)) :
    ∃ mr : ℝ, m T = (mr : EReal) ∧ l T = ((∑ p, Real.exp (x p - mr) : ℝ) : EReal) := by
  obtain ⟨mr, h1, h2⟩ := online_inv x B T m l hm0 hl0 hstep T le_rfl
  exact ⟨mr, h1, by rw [h2, seen_last hn]⟩

/-- **The softmax from a parametric pass**: under `online_run`'s hypotheses, `exp (x p - m T) / l T` is the row's
    softmax at `p` normalised at its maximum from `⊥`. -/
theorem softmax_of_run (x : Fin n → ℝ) (B T : ℕ) (hn : n ≤ T * B) (m l : ℕ → EReal)
    (hm0 : ∃ NEG : ℝ, m 0 = (NEG : EReal)) (hl0 : l 0 = 0)
    (hstep : ∀ v, v < T → ∃ c s : EReal, (∃ cr : ℝ, c = (cr : EReal)) ∧ m (v + 1) = max (m v) c ∧
      l (v + 1) = Ideal.exp (m v - max (m v) c) * l v + s ∧
      ∀ mr' : ℝ, max (m v) c = (mr' : EReal) → s = ((∑ p ∈ tile n B v, Real.exp (x p - mr') : ℝ) : EReal))
    (p : Fin n) :
    Ideal.div (Ideal.exp ((x p : EReal) - m T)) (l T)
      = Ideal.div (Ideal.exp ((x p : EReal) - univ.sup (fun q => (x q : EReal))))
          (∑ q, Ideal.exp ((x q : EReal) - univ.sup (fun q => (x q : EReal)))) := by
  obtain ⟨mr, h1, h2⟩ := online_run x B T hn m l hm0 hl0 hstep
  rw [h1, h2]
  exact softmax_shift_sup x univ ⟨p, Finset.mem_univ p⟩ mr p

end Cert.LibSoftmaxTiles
-- ==== Proof.Spec.lean ====
/-
  The two spellings of `Terms` give the same result on finite inputs.

  Write `d p` for row `p`'s distance (a real, the square root of a sum of squares of reals) and `x p = -d p`.

  * The tiled statistics: after tile `n` the running maximum is a real `mr`, it is the maximum of `x` over the
    rows of tiles `0 … n`, and the running sum is `∑ exp (x p - mr)` over those rows (`stats_inv`).  The first tile
    starts from `-∞` and `0`: `max ⊥ c = c` and `0 · exp (⊥ - c) = 0`, so it leaves the tile's own maximum and sum;
    every later tile is one step of the online-softmax recurrence.  After the last tile all rows are covered
    (`stats_final`).
  * The least distance: minus the maximum of `x` is the minimum of `d` (`least_eq`), so both spellings decide
    "nothing moves" alike.
  * The weights: when nothing moves the tiled scale is `rate · 0 / sum = 0` and the row is `u + 0 · (v - u) = u`,
    which is what the select keeps; otherwise `exp (-mr - d p) · (rate · 1 / L)` and `(exp (x p - mr) / L) · rate`
    are one product of the same three factors (`wgt_move`), the softmax's shift being the same maximum `mr` and
    its normaliser the same sum `L`.
-/
import proofs.«172311_j70351564308696_1_alg».proof.Proof.Terms
import proofs.«172311_j70351564308696_1_alg».proof.Proof.LibSoftmaxTiles
import Idealize.ShloMosaic.PureOps.Ideal.Laws
import Idealize.ShloMosaic.Lib.IdealHost
import Idealize.ShloMosaic.Lib.ValueIdx

noncomputable section

open scoped BigOperators
open Finset

namespace Cert.Spec

open Idealize.ShloMosaic Cert.Terms Cert.LibOnlineSoftmax Cert.LibSoftmaxTiles

/-! ## The literal words that are evaluated -/

theorem ninfW_eq : ninfW = ⊥ := by simp [ninfW, Ideal.ofBits, Ideal.ieee]
theorem pinfW_eq : pinfW = ⊤ := by simp [pinfW, Ideal.ofBits, Ideal.ieee]
theorem zeroW_eq : zeroW = 0 := Ideal.ofBits_zero_f32
theorem oneW_eq : oneW = 1 := Ideal.ofBits_one_f32

/-- Dividing by the one word changes nothing. -/
theorem div_oneW (y : EReal) : Ideal.div y oneW = y := by
  rw [oneW_eq, ← EReal.coe_one, Ideal.div_coe one_ne_zero, div_one, EReal.coe_one, mul_one]

section

variable (a : Fin 2000000 → Fin 64 → EReal) (mm : Fin 2000000 → Fin 10 → EReal)
variable (q : Fin 64 → EReal) (qc : Fin 10 → EReal)
variable (d : Fin 2000000 → ℝ)

/-- Minus the distance. -/
abbrev x (p : Fin 2000000) : ℝ := -d p

/-! ## One tile -/

/-- A lane of a tile is minus the distance of its row. -/
theorem nd_coe (hd : ∀ p, dist a q p = (d p : EReal)) (t : ℕ) (r : Fin 25000) (h : t * 25000 + r.val < 2000000) :
    nd a q t r = ((x d ⟨t * 25000 + r.val, h⟩ : ℝ) : EReal) := by
  unfold nd
  rw [dif_pos h, zeroW_eq, hd, zero_sub, ← EReal.coe_neg]

/-- A tile's maximum over its lanes is the maximum of `x` over its rows. -/
theorem tile_max (hd : ∀ p, dist a q p = (d p : EReal)) (t : ℕ) (ht : t < 80) :
    (Finset.univ : Finset (Fin 25000)).fold max ninfW (nd a q t)
      = (tile 2000000 25000 t).sup (fun p => ((x d p : ℝ) : EReal)) := by
  rw [ninfW_eq]
  show (Finset.univ : Finset (Fin 25000)).sup (nd a q t) = _
  apply le_antisymm
  · refine Finset.sup_le (fun r _ => ?_)
    have hr := r.isLt
    have h : t * 25000 + r.val < 2000000 := by omega
    rw [nd_coe a q d hd t r h]
    exact Finset.le_sup (f := fun p => ((x d p : ℝ) : EReal)) (mem_tile.mpr ⟨by show t * 25000 ≤ t * 25000 + r.val; omega, by show t * 25000 + r.val < (t + 1) * 25000; omega⟩)
  · refine Finset.sup_le (fun p hp => ?_)
    obtain ⟨h1, h2⟩ := mem_tile.mp hp
    have hlt : p.val - t * 25000 < 25000 := by omega
    have h : t * 25000 + (⟨p.val - t * 25000, hlt⟩ : Fin 25000).val < 2000000 := by
      show t * 25000 + (p.val - t * 25000) < 2000000
      have := p.isLt; omega
    have e : nd a q t ⟨p.val - t * 25000, hlt⟩ = ((x d p : ℝ) : EReal) := by
      rw [nd_coe a q d hd t _ h]
      congr 2
      apply Fin.ext
      show t * 25000 + (p.val - t * 25000) = p.val
      omega
    rw [← e]
    exact Finset.le_sup (f := nd a q t) (Finset.mem_univ _)

/-- A tile has a row, so its maximum is a real. -/
theorem tile_max_coe (hd : ∀ p, dist a q p = (d p : EReal)) (t : ℕ) (ht : t < 80) :
    ∃ cr : ℝ, (Finset.univ : Finset (Fin 25000)).fold max ninfW (nd a q t) = (cr : EReal) := by
  have hne : (tile 2000000 25000 t).Nonempty :=
    ⟨⟨t * 25000, by omega⟩, mem_tile.mpr ⟨le_rfl, by show t * 25000 < (t + 1) * 25000; omega⟩⟩
  exact ⟨_, (tile_max a q d hd t ht).trans (sup_coe _ hne (x d))⟩

/-- A tile's sum of exponentials at a real shift. -/
theorem tile_sum (hd : ∀ p, dist a q p = (d p : EReal)) (t : ℕ) (ht : t < 80) (mr' : ℝ) :
    ∑ r : Fin 25000, Ideal.exp (nd a q t r - (mr' : EReal))
      = ((∑ p ∈ tile 2000000 25000 t, Real.exp (x d p - mr') : ℝ) : EReal) :=
  tileSum_coe_terms (x d) 25000 t mr' (fun r => Ideal.exp (nd a q t r - (mr' : EReal)))
    (fun r h => by show Ideal.exp (nd a q t r - (mr' : EReal)) = _; rw [nd_coe a q d hd t r h])
    (fun r h => absurd (by have := r.isLt; omega) h)

/-! ## The statistics after each tile -/

/-- After tile `n`: the maximum is a real, it is the maximum of `x` over the rows seen, and the sum is the sum of
    `exp (x - maximum)` over them. -/
theorem stats_inv (hd : ∀ p, dist a q p = (d p : EReal)) (n : ℕ) (hn : n < 80) :
    ∃ mr : ℝ, (stats a q n).1 = (mr : EReal)
      ∧ (stats a q n).1 = (seen 2000000 25000 (n + 1)).sup (fun p => ((x d p : ℝ) : EReal))
      ∧ (stats a q n).2 = ((∑ p ∈ seen 2000000 25000 (n + 1), Real.exp (x d p - mr) : ℝ) : EReal) := by
  induction n with
  | zero =>
    obtain ⟨cr, hc⟩ := tile_max_coe a q d hd 0 hn
    rw [Terms.stats.eq_1]
    dsimp only [step]
    rw [ninfW_eq, max_bot_left, zeroW_eq, zero_mul, zero_add, seen_succ, seen_zero, Finset.empty_union]
    refine ⟨cr, by rw [← ninfW_eq]; exact hc, by rw [← ninfW_eq]; exact tile_max a q d hd 0 hn, ?_⟩
    rw [← ninfW_eq, hc, zero_add]
    exact tile_sum a q d hd 0 hn cr
  | succ n ih =>
    obtain ⟨mr, hm, hsup, hl⟩ := ih (by omega)
    obtain ⟨cr, hc⟩ := tile_max_coe a q d hd (n + 1) hn
    rw [Terms.stats.eq_2]
    dsimp only [step]
    obtain ⟨mr', hm', hl'⟩ := online_step (x d) (seen 2000000 25000 (n + 1)) (tile 2000000 25000 (n + 1))
      (disjoint_seen_tile 25000 (n + 1)) (stats a q n).1 (stats a q n).2
      ((Finset.univ : Finset (Fin 25000)).fold max ninfW (nd a q (n + 1)))
      (∑ r : Fin 25000, Ideal.exp (nd a q (n + 1) r
        - max (stats a q n).1 ((Finset.univ : Finset (Fin 25000)).fold max ninfW (nd a q (n + 1)))))
      ⟨mr, hm, hl⟩ ⟨cr, hc⟩ (fun m2 h2 => by rw [h2]; exact tile_sum a q d hd (n + 1) hn m2)
    refine ⟨mr', hm', ?_, ?_⟩
    · rw [seen_succ 25000 (n + 1), Finset.sup_union, ← hsup, ← tile_max a q d hd (n + 1) hn]
    · rw [mul_comm, seen_succ 25000 (n + 1)]
      exact hl'

/-- After the last tile every row has been seen. -/
theorem stats_final (hd : ∀ p, dist a q p = (d p : EReal)) :
    ∃ mr : ℝ, (stats a q 79).1 = (mr : EReal)
      ∧ (mr : EReal) = (Finset.univ : Finset (Fin 2000000)).sup (fun p => ((x d p : ℝ) : EReal))
      ∧ (stats a q 79).2 = ((∑ p : Fin 2000000, Real.exp (x d p - mr) : ℝ) : EReal) := by
  obtain ⟨mr, hm, hsup, hl⟩ := stats_inv a q d hd 79 (by norm_num)
  have hall : seen 2000000 25000 (79 + 1) = Finset.univ := seen_last (n := 2000000) (B := 25000) (T := 80) (by norm_num)
  rw [hall] at hsup hl
  exact ⟨mr, hm, hm.symm.trans hsup, hl⟩

/-! ## The least distance -/

/-- The minimum of the distances from `⊤` is minus the maximum of their negatives from `⊥`. -/
theorem leastR_eq (hdz : ∀ p, distZ a q p = (d p : EReal)) : leastR a q = -((Finset.univ : Finset (Fin 2000000)).sup (fun p => ((x d p : ℝ) : EReal))) := by
  unfold leastR
  rw [pinfW_eq]
  show (Finset.univ : Finset (Fin 2000000)).inf (distZ a q) = _
  have hx : ∀ p, ((x d p : ℝ) : EReal) = -(distZ a q p) := fun p => by rw [hdz, ← EReal.coe_neg]
  apply le_antisymm
  · rw [EReal.le_neg]
    refine Finset.sup_le (fun p _ => ?_)
    rw [hx p, EReal.neg_le_neg_iff]
    exact Finset.inf_le (Finset.mem_univ p)
  · refine Finset.le_inf (fun p _ => ?_)
    rw [EReal.neg_le, ← hx p]
    exact Finset.le_sup (f := fun p => ((x d p : ℝ) : EReal)) (Finset.mem_univ p)

/-- Both spellings have the same least distance. -/
theorem least_eq (hd : ∀ p, dist a q p = (d p : EReal)) (hdz : ∀ p, distZ a q p = (d p : EReal)) : leastK a q = leastR a q := by
  obtain ⟨mr, hm, hsup, _⟩ := stats_final a q d hd
  rw [leastR_eq a q d hdz, ← hsup]
  unfold leastK
  rw [hm]

/-! ## The weights -/

/-- A logit is minus the distance. -/
theorem logit_coe (hdz : ∀ p, distZ a q p = (d p : EReal)) (p : Fin 2000000) : logit a q p = ((x d p : ℝ) : EReal) := by
  unfold logit
  rw [div_oneW, hdz, ← EReal.coe_neg]

/-- The whole-array weight, with the final statistics `mr` and `L` put in. -/
theorem wgtR_eq (hdz : ∀ p, distZ a q p = (d p : EReal)) (mr : ℝ) (hsup : (mr : EReal) = (Finset.univ : Finset (Fin 2000000)).sup (fun p => ((x d p : ℝ) : EReal)))
    (p : Fin 2000000) :
    wgtR a q p = Ideal.div ((Real.exp (x d p - mr) : ℝ) : EReal) ((∑ p : Fin 2000000, Real.exp (x d p - mr) : ℝ) : EReal) * emaW := by
  have hl : logit a q = fun p => ((x d p : ℝ) : EReal) := funext (logit_coe a q d hdz)
  have hs : shiftR a q = (mr : EReal) := by
    unfold shiftR
    rw [ninfW_eq, max_bot_left, hl]
    exact hsup.symm
  have hn : normR a q = ((∑ p : Fin 2000000, Real.exp (x d p - mr) : ℝ) : EReal) := by
    unfold normR
    rw [zeroW_eq, zero_add, hs, hl]
    exact sum_ideal_exp_sub_coe (x d) Finset.univ mr
  unfold wgtR
  rw [hn, hs, hl, ideal_exp_sub_coe]

/-- When something moves, the two weights are one product. -/
theorem wgt_move (hd : ∀ p, dist a q p = (d p : EReal)) (hdz : ∀ p, distZ a q p = (d p : EReal)) (ge : EReal) (hb : ¬ stay (leastK a q) ge = 1#1) (p : Fin 2000000) :
    wgtK a q (leastK a q) (scaleK a q ge) p = wgtR a q p := by
  obtain ⟨mr, hm, hsup, hl⟩ := stats_final a q d hd
  rw [wgtR_eq a q d hdz mr hsup p]
  unfold wgtK scaleK
  rw [show Scalar.select (stay (leastK a q) ge) zeroW oneW = oneW from if_neg hb, oneW_eq, mul_one, hl]
  have hpos : (∑ p : Fin 2000000, Real.exp (x d p - mr)) ≠ 0 :=
    (sum_exp_pos (x d) Finset.univ ⟨p, Finset.mem_univ p⟩ mr).ne'
  rw [Ideal.div_coe hpos, Ideal.div_coe hpos]
  unfold leastK
  rw [hm, hd, ← EReal.coe_neg, ideal_exp_sub_coe]
  have e : -mr - d p = x d p - mr := by show -mr - d p = -d p - mr; ring
  rw [e, mul_comm emaW, ← mul_assoc]

/-- When nothing moves, the tiled weight is zero. -/
theorem wgt_stay (hd : ∀ p, dist a q p = (d p : EReal)) (ge : EReal) (hb : stay (leastK a q) ge = 1#1) (p : Fin 2000000) :
    wgtK a q (leastK a q) (scaleK a q ge) p = 0 := by
  obtain ⟨mr, hm, hsup, hl⟩ := stats_final a q d hd
  unfold wgtK scaleK
  rw [show Scalar.select (stay (leastK a q) ge) zeroW oneW = zeroW from if_pos hb, zeroW_eq, mul_zero, hl]
  have hpos : (∑ p : Fin 2000000, Real.exp (x d p - mr)) ≠ 0 :=
    (sum_exp_pos (x d) Finset.univ ⟨p, Finset.mem_univ p⟩ mr).ne'
  rw [Ideal.div_coe hpos, zero_mul, mul_zero]

/-- One entry: an old value `u` pulled toward `v`. -/
theorem entry_eq (hd : ∀ p, dist a q p = (d p : EReal)) (hdz : ∀ p, distZ a q p = (d p : EReal)) (ge : EReal) (p : Fin 2000000) (u v : EReal) :
    u + wgtK a q (leastK a q) (scaleK a q ge) p * (v - u)
      = Scalar.select (stay (leastR a q) ge) u (u + wgtR a q p * (v - u)) := by
  rw [← least_eq a q d hd hdz]
  by_cases hb : stay (leastK a q) ge = 1#1
  · rw [wgt_stay a q d hd ge hb p, zero_mul, add_zero]
    exact (if_pos hb).symm
  · rw [wgt_move a q d hd hdz ge hb p]
    exact (if_neg hb).symm

/-- **The two spellings agree**, entry by entry. -/
theorem out_eq_of_dist (hd : ∀ p, dist a q p = (d p : EReal)) (hdz : ∀ p, distZ a q p = (d p : EReal)) (ge : EReal) (p : Fin 2000000) (j : Fin 74) :
    outK a mm q qc (leastK a q) (scaleK a q ge) p j = outR a mm q qc ge p j := by
  unfold outK outR
  by_cases h : j.val < 64
  · rw [dif_pos h, dif_pos h]
    exact entry_eq a q d hd hdz ge p _ _
  · rw [dif_neg h, dif_neg h]
    exact entry_eq a q d hd hdz ge p _ _

end

/-! ## Distances of finite rows are reals -/

/-- On finite rows and a finite query both spellings of the distance are one real. -/
theorem exists_dist (a : Fin 2000000 → Fin 64 → EReal) (q : Fin 64 → EReal)
    (ha : ∀ p k, ∃ r : ℝ, a p k = (r : EReal)) (hq : ∀ k, ∃ r : ℝ, q k = (r : EReal)) :
    ∃ d : Fin 2000000 → ℝ, (∀ p, Terms.dist a q p = (d p : EReal)) ∧ (∀ p, Terms.distZ a q p = (d p : EReal)) := by
  choose ar har using ha
  choose qr hqr using hq
  have hs : ∀ p, (∑ k : Fin 64, (a p k - q k) * (a p k - q k))
      = ((∑ k : Fin 64, (ar p k - qr k) * (ar p k - qr k) : ℝ) : EReal) := fun p => by
    rw [coe_finset_sum]
    exact Finset.sum_congr rfl (fun k _ => by rw [har, hqr, ← EReal.coe_sub, ← EReal.coe_mul])
  have hnn : ∀ p, ¬ (∑ k : Fin 64, (ar p k - qr k) * (ar p k - qr k)) < 0 := fun p =>
    not_lt.mpr (Finset.sum_nonneg (fun k _ => mul_self_nonneg _))
  refine ⟨fun p => Real.sqrt (∑ k : Fin 64, (ar p k - qr k) * (ar p k - qr k)), fun p => ?_, fun p => ?_⟩
  · unfold Terms.dist
    rw [hs p, Ideal.sqrt_coe, if_neg (hnn p)]
  · unfold Terms.distZ
    rw [zeroW_eq, zero_add, hs p, Ideal.sqrt_coe, if_neg (hnn p)]

/-- **The two spellings agree on finite inputs.** -/
theorem out_eq (a : Fin 2000000 → Fin 64 → EReal) (mm : Fin 2000000 → Fin 10 → EReal) (q : Fin 64 → EReal)
    (qc : Fin 10 → EReal) (ge : EReal)
    (ha : ∀ p k, ∃ r : ℝ, a p k = (r : EReal)) (hq : ∀ k, ∃ r : ℝ, q k = (r : EReal))
    (p : Fin 2000000) (j : Fin 74) :
    outK a mm q qc (leastK a q) (scaleK a q ge) p j = outR a mm q qc ge p j := by
  obtain ⟨d, hd, hdz⟩ := exists_dist a q ha hq
  exact out_eq_of_dist a mm q qc d hd hdz ge p j

end Cert.Spec

end
-- ==== Proof.Finite.lean ====
/-
  Finiteness of the inputs, read out of the precondition: every entry of the address array and of the query address
  is a real number.
-/
import proofs.«172311_j70351564308696_1_alg».proof.Defs
import proofs.«172311_j70351564308696_1_alg».proof.Proof.Gen.Pre_finite_inputs
import Idealize.ShloMosaic.Lib.ValueIdx
import Idealize.ShloMosaic.Lib.ReduceAll

noncomputable section

open Idealize.ShloMosaic Idealize.ShloMosaic.TcCoe Idealize.SL.Sem Idealize.ShloMosaic.ValueIdx

namespace Cert.Finite

/-- The result shape of a reduction over every axis has exactly one index. -/
instance : Subsingleton Cert.Pre_finite_inputs.S_.Idx := ⟨fun a b => funext fun d => d.elim0⟩

/-- An extended real whose absolute value compares below the plus-infinity word is a real: the word is `⊤`, and
    both `⊥` and `⊤` have absolute value `⊤`, which is not below `⊤`. -/
theorem real_of_abs_lt_pinf (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at hx
  induction x using EReal.rec with
  | bot => simp [Ideal.cmp] at hx
  | coe r => exact ⟨r, rfl⟩
  | top => simp [Ideal.cmp] at hx

/-- Under the precondition the address array and the query address hold reals. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S2000000x64.Idx, ∃ r : ℝ,
        (m ((c.tc : Thread Cert.KernelIdeal.nD Cert.KernelIdeal.τ).loc Cert.KernelIdeal.main_arg0) : Cert.KernelIdeal.S2000000x64.Idx → EReal) i = (r : EReal))
    ∧ (∀ i : Cert.KernelIdeal.S64.Idx, ∃ r : ℝ,
        (m ((c.tc : Thread Cert.KernelIdeal.nD Cert.KernelIdeal.τ).loc Cert.KernelIdeal.main_arg2) : Cert.KernelIdeal.S64.Idx → EReal) i = (r : EReal)) := by
  have h0 := congrFun (h c) ValueIdx.ix0
  dsimp only [Cert.Pre_finite_inputs.fn, Cert.Pre_finite_inputs.fn_part1, andi] at h0
  obtain ⟨h0123, -⟩ := IntOp.andi_eq_one.1 h0
  obtain ⟨h012, -⟩ := IntOp.andi_eq_one.1 h0123
  obtain ⟨h01, hq⟩ := IntOp.andi_eq_one.1 h012
  obtain ⟨ha, -⟩ := IntOp.andi_eq_one.1 h01
  refine ⟨fun i => ?_, fun i => ?_⟩
  · have e := Host.reduce_andi_all _ _ _ _ _ ha i
    exact real_of_abs_lt_pinf _ e
  · have e := Host.reduce_andi_all _ _ _ _ _ hq i
    exact real_of_abs_lt_pinf _ e

end Cert.Finite

end
-- ==== Proof.RefValue.lean ====
/-
  The whole-array program read at an entry: its result at `(p, j)` is `Terms.outR` of its arguments.
-/
import proofs.«172311_j70351564308696_1_alg».proof.Proof.RefRead
import proofs.«172311_j70351564308696_1_alg».proof.Proof.Terms
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen
open scoped BigOperators

/-! ## Reductions over all entries of a rank-1 array, by the coordinate -/

/-- The indices of a rank-1 array are its coordinates … -/
def idxEquiv1 {n : Nat} : (⟨1, ![n]⟩ : Shape).Idx ≃ Fin n where
  toFun i := i 0
  invFun p := ix1 p
  left_inv i := (eq_ix1 i).symm
  right_inv _ := rfl

/-- … so a sum over them is the sum over the coordinates … -/
theorem sum_idx1 {n : Nat} (f : (⟨1, ![n]⟩ : Shape).Idx → EReal) : ∑ i, f i = ∑ p : Fin n, f (ix1 p) := by
  rw [← Equiv.sum_comp (idxEquiv1 (n := n)).symm f]
  rfl

/-- … and a fold over them the fold over the coordinates. -/
theorem fold_idx1 {n : Nat} (op : EReal → EReal → EReal) [Std.Commutative op] [Std.Associative op] (b : EReal)
    (f : (⟨1, ![n]⟩ : Shape).Idx → EReal) :
    (Finset.univ : Finset (⟨1, ![n]⟩ : Shape).Idx).fold op b f = (Finset.univ : Finset (Fin n)).fold op b fun p => f (ix1 p) := by
  rw [← Finset.map_univ_equiv (idxEquiv1 (n := n)).symm, Finset.fold_map]
  rfl

/-- Every index of a rank-1 array drops to the one empty index. -/
theorem filter_drop_all {n : Nat} (h' : (⟨1, ![n]⟩ : Shape).ReducesTo [0] (⟨0, ![]⟩ : Shape)) (j : (⟨0, ![]⟩ : Shape).Idx) :
    (Finset.univ.filter fun i => h'.drop i = j) = Finset.univ :=
  Finset.filter_true_of_mem fun i _ => funext fun b => b.elim0

/-- A minimum-reduce of a rank-1 array to a scalar is the fold of `min` from the initial value over the coordinates. -/
theorem reduce_min_all {n : Nat} (x : (⟨1, ![n]⟩ : Shape).Idx → EReal) (init : (⟨0, ![]⟩ : Shape).Idx → EReal)
    (h' : (⟨1, ![n]⟩ : Shape).ReducesTo [0] (⟨0, ![]⟩ : Shape)) (hu : 0 < (⟨0, ![]⟩ : Shape).numel)
    (j : (⟨0, ![]⟩ : Shape).Idx) :
    Host.reduce (FloatOps.minimumf (F := Ideal) (φ := .f32)) x init h' hu j
      = (Finset.univ : Finset (Fin n)).fold min (init ix0) (fun p => x (ix1 p)) := by
  rw [Host.reduce_eq_fold (FloatOps.minimumf (F := Ideal) (φ := .f32)) x init h' hu j, filter_drop_all h' j,
    fold_idx1, congrArg init (eq_ix0 (Shape.Idx.first hu))]
  rfl

/-- A maximum-reduce of a rank-1 array to a scalar is the fold of `max` from the initial value over the coordinates. -/
theorem reduce_max_all {n : Nat} (x : (⟨1, ![n]⟩ : Shape).Idx → EReal) (init : (⟨0, ![]⟩ : Shape).Idx → EReal)
    (h' : (⟨1, ![n]⟩ : Shape).ReducesTo [0] (⟨0, ![]⟩ : Shape)) (hu : 0 < (⟨0, ![]⟩ : Shape).numel)
    (j : (⟨0, ![]⟩ : Shape).Idx) :
    Host.reduce (FloatOps.maximumf (F := Ideal) (φ := .f32)) x init h' hu j
      = (Finset.univ : Finset (Fin n)).fold max (init ix0) (fun p => x (ix1 p)) := by
  rw [Host.reduce_eq_fold (FloatOps.maximumf (F := Ideal) (φ := .f32)) x init h' hu j, filter_drop_all h' j,
    fold_idx1, congrArg init (eq_ix0 (Shape.Idx.first hu))]
  rfl

section Stages

open Cert.ReferenceIdeal.ReadP

variable (x0 : S2000000x64.Idx → EReal) (x1 : S2000000x10.Idx → EReal) (x2 : S64.Idx → EReal)
  (x3 : S10.Idx → EReal) (x4 : S1.Idx → EReal)

/-! ## The argument arrays by coordinates -/

/-- The addresses, row by column. -/
abbrev adr : Fin 2000000 → Fin 64 → EReal := fun p k => x0 (ix2 p k)
/-- The contents, row by column. -/
abbrev cnt : Fin 2000000 → Fin 10 → EReal := fun p k => x1 (ix2 p k)
/-- The query address. -/
abbrev qa : Fin 64 → EReal := fun k => x2 (ix1 k)
/-- The query content. -/
abbrev qcn : Fin 10 → EReal := fun k => x3 (ix1 k)

/-! ## The distances -/

/-- The query address broadcast down the rows, at `(p, k)`, is its entry `k`. -/
theorem bq_apply (p : Fin 2000000) (k : Fin 64) : val_main_v1 (F := Ideal) x2 (ix2 p k) = x2 (ix1 k) := by
  rw [val_main_v1_apply, val_main_v0_apply]
  exact congrArg x2 (funext fun a => Fin.ext (by match a with | ⟨0, _⟩ => rfl))

/-- A squared difference at `(p, k)`. -/
theorem sq_apply (p : Fin 2000000) (k : Fin 64) :
    val_main_v3 (F := Ideal) x0 x2 (ix2 p k) = (x0 (ix2 p k) - x2 (ix1 k)) * (x0 (ix2 p k) - x2 (ix1 k)) := by
  rw [val_main_v3_apply, val_main_v2_apply, bq_apply]
  rfl

/-- Row `p`'s distance to the query. -/
theorem dist_apply (p : Fin 2000000) :
    val_main_v5 (F := Ideal) x0 x2 (ix1 p) = Terms.distZ (adr x0) (qa x2) p := by
  rw [val_main_v5_apply, val_main_v4_apply, val_main_cst_apply]
  have e : ∀ k : Fin 64, val_main_v3 (F := Ideal) x0 x2 (idx_main_v4 (ix1 p) k)
      = (x0 (ix2 p k) - x2 (ix1 k)) * (x0 (ix2 p k) - x2 (ix1 k)) := fun k => by
    rw [← sq_apply x0 x2 p k]
    exact congrArg (val_main_v3 (F := Ideal) x0 x2) (funext fun a => Fin.ext (by match a with | ⟨0, _⟩ => rfl | ⟨1, _⟩ => rfl))
  rw [Finset.sum_congr rfl fun k _ => e k]
  rfl

/-! ## The least distance and the test on it -/

/-- The minimum-reduce of the distances from the plus-infinity word. -/
theorem least_apply (i : S_.Idx) : val_main_v6 (F := Ideal) x0 x2 i = Terms.leastR (adr x0) (qa x2) := by
  unfold val_main_v6
  rw [reduce_min_all (val_main_v5 (F := Ideal) x0 x2) (val_main_cst_0 (F := Ideal)) reducesTo_S2000000_S_d0 h_S_ i,
    val_main_cst_0_apply]
  unfold Terms.leastR
  exact congrArg (fun f => Finset.fold min (Ideal.ofBits .f32 0x7F800000#32) f (Finset.univ : Finset (Fin 2000000)))
    (funext fun p => dist_apply x0 x2 p)

/-- The running error's one entry, as a scalar. -/
theorem ge_apply (i : S_.Idx) : val_main_v7 (F := Ideal) x4 i = x4 (ix1 0) := by
  unfold val_main_v7
  exact shapeCast_apply x4 shapeCasts_S1_S_ i (ix1 0) (by rw [Shape.rowMajor_val_one]; exact (Shape.rowMajorPi_zero _ _).symm)

/-- Whether nothing is to move. -/
theorem stay_apply (i : S_.Idx) :
    val_main_v12 (F := Ideal) x0 x2 x4 i = Terms.stay (Terms.leastR (adr x0) (qa x2)) (x4 (ix1 0)) := by
  rw [val_main_v12_apply, val_main_v11_apply, val_main_v10_apply, val_main_v9_apply, val_main_v8_apply,
    val_main_cst_1_apply, val_main_cst_2_apply, least_apply, ge_apply]
  rfl

/-! ## The softmax of minus the distances -/

/-- Minus the distance over the one word. -/
theorem logit_apply (p : Fin 2000000) :
    val_main_v15 (F := Ideal) x0 x2 (ix1 p) = Terms.logit (adr x0) (qa x2) p := by
  rw [val_main_v15_apply, val_main_v13_apply, val_main_v14_apply, val_main_cst_3_apply, dist_apply]
  rfl

/-- The shift: the maximum with the minus-infinity word of the maximum-reduce from that word. -/
theorem shift_apply (i : S_.Idx) : val_main_v17 (F := Ideal) x0 x2 i = Terms.shiftR (adr x0) (qa x2) := by
  rw [val_main_v17_apply, val_main_cst_5_apply]
  unfold val_main_v16
  rw [reduce_max_all (val_main_v15 (F := Ideal) x0 x2) (val_main_cst_4 (F := Ideal)) reducesTo_S2000000_S_d0 h_S_ i,
    val_main_cst_4_apply]
  unfold Terms.shiftR
  exact congrArg (fun f => max (Ideal.ofBits .f32 0xFF800000#32)
      (Finset.fold max (Ideal.ofBits .f32 0xFF800000#32) f (Finset.univ : Finset (Fin 2000000))))
    (funext fun p => logit_apply x0 x2 p)

/-- A row's exponential. -/
theorem exp_apply (p : Fin 2000000) :
    val_main_v21 (F := Ideal) x0 x2 (ix1 p)
      = Ideal.exp (Terms.logit (adr x0) (qa x2) p - Terms.shiftR (adr x0) (qa x2)) := by
  rw [val_main_v21_apply, val_main_v20_apply, val_main_v19_apply, val_main_v18_apply, shift_apply, logit_apply]
  rfl

/-- The normaliser: the sum of the exponentials from the zero word. -/
theorem norm_apply (i : S_.Idx) : val_main_v22 (F := Ideal) x0 x2 i = Terms.normR (adr x0) (qa x2) := by
  rw [val_main_v22_apply, val_main_cst_6_apply, sum_idx1 (val_main_v21 (F := Ideal) x0 x2),
    Finset.sum_congr rfl fun p _ => exp_apply x0 x2 p]
  rfl

/-- A row's weight. -/
theorem wgt_apply (p : Fin 2000000) :
    val_main_v27 (F := Ideal) x0 x2 (ix1 p) = Terms.wgtR (adr x0) (qa x2) p := by
  rw [val_main_v27_apply, val_main_v25_apply, val_main_v26_apply, val_main_cst_7_apply, val_main_v24_apply,
    val_main_v23_apply, norm_apply, exp_apply]
  rfl

/-! ## The moved rows -/

/-- A row's weight broadcast along the 64 columns. -/
theorem wgtA_apply (p : Fin 2000000) (k : Fin 64) :
    val_main_v32 (F := Ideal) x0 x2 (ix2 p k) = Terms.wgtR (adr x0) (qa x2) p := by
  rw [val_main_v32_apply, val_main_v28_apply, ← wgt_apply x0 x2 p]
  exact congrArg (val_main_v27 (F := Ideal) x0 x2) (funext fun a => Fin.ext (by match a with | ⟨0, _⟩ => rfl))

/-- The query address broadcast down the rows a second time. -/
theorem bq2_apply (p : Fin 2000000) (k : Fin 64) : val_main_v30 (F := Ideal) x2 (ix2 p k) = x2 (ix1 k) := by
  rw [val_main_v30_apply, val_main_v29_apply]
  exact congrArg x2 (funext fun a => Fin.ext (by match a with | ⟨0, _⟩ => rfl))

/-- The moved address at `(p, k)`. -/
theorem movedA_apply (p : Fin 2000000) (k : Fin 64) :
    val_main_v34 (F := Ideal) x0 x2 (ix2 p k)
      = x0 (ix2 p k) + Terms.wgtR (adr x0) (qa x2) p * (x2 (ix1 k) - x0 (ix2 p k)) := by
  rw [val_main_v34_apply, val_main_v33_apply, val_main_v31_apply, wgtA_apply, bq2_apply]
  rfl

/-- A row's weight broadcast along the 10 columns. -/
theorem wgtM_apply (p : Fin 2000000) (k : Fin 10) :
    val_main_v39 (F := Ideal) x0 x2 (ix2 p k) = Terms.wgtR (adr x0) (qa x2) p := by
  rw [val_main_v39_apply, val_main_v35_apply, ← wgt_apply x0 x2 p]
  exact congrArg (val_main_v27 (F := Ideal) x0 x2) (funext fun a => Fin.ext (by match a with | ⟨0, _⟩ => rfl))

/-- The query content broadcast down the rows. -/
theorem bqc_apply (p : Fin 2000000) (k : Fin 10) : val_main_v37 (F := Ideal) x3 (ix2 p k) = x3 (ix1 k) := by
  rw [val_main_v37_apply, val_main_v36_apply]
  exact congrArg x3 (funext fun a => Fin.ext (by match a with | ⟨0, _⟩ => rfl))

/-- The moved content at `(p, k)`. -/
theorem movedM_apply (p : Fin 2000000) (k : Fin 10) :
    val_main_v41 (F := Ideal) x0 x1 x2 x3 (ix2 p k)
      = x1 (ix2 p k) + Terms.wgtR (adr x0) (qa x2) p * (x3 (ix1 k) - x1 (ix2 p k)) := by
  rw [val_main_v41_apply, val_main_v40_apply, val_main_v38_apply, wgtM_apply, bqc_apply]
  rfl

/-! ## The two selects and the concatenation -/

/-- The address half of the result: the old entry when nothing is to move, else the moved one. -/
theorem selA_apply (p : Fin 2000000) (k : Fin 64) :
    val_main_v42 (F := Ideal) x0 x2 x4 (ix2 p k)
      = Scalar.select (Terms.stay (Terms.leastR (adr x0) (qa x2)) (x4 (ix1 0))) (x0 (ix2 p k))
          (x0 (ix2 p k) + Terms.wgtR (adr x0) (qa x2) p * (x2 (ix1 k) - x0 (ix2 p k))) := by
  unfold val_main_v42
  rw [select_apply, movedA_apply,
    broadcastInDim_apply _ bcast_S_S2000000x64 (val_main_v12 (F := Ideal) x0 x2 x4) (ix2 p k) ix0 (fun a => a.elim0),
    stay_apply]

/-- The content half of the result. -/
theorem selM_apply (p : Fin 2000000) (k : Fin 10) :
    val_main_v43 (F := Ideal) x0 x1 x2 x3 x4 (ix2 p k)
      = Scalar.select (Terms.stay (Terms.leastR (adr x0) (qa x2)) (x4 (ix1 0))) (x1 (ix2 p k))
          (x1 (ix2 p k) + Terms.wgtR (adr x0) (qa x2) p * (x3 (ix1 k) - x1 (ix2 p k))) := by
  unfold val_main_v43
  rw [select_apply, movedM_apply,
    broadcastInDim_apply _ bcast_S_S2000000x10 (val_main_v12 (F := Ideal) x0 x2 x4) (ix2 p k) ix0 (fun a => a.elim0),
    stay_apply]

/-- Left of column 64 the result is the address half. -/
theorem cat_left (p : Fin 2000000) (j : Fin 74) (h : j.val < 64) :
    val_main_v44 (F := Ideal) x0 x1 x2 x3 x4 (ix2 p j) = val_main_v42 (F := Ideal) x0 x2 x4 (ix2 p ⟨j.val, h⟩) := by
  unfold val_main_v44
  exact concatenate_pair_apply_left (1 : Fin S2000000x74.rank) (val_main_v42 (F := Ideal) x0 x2 x4)
    (val_main_v43 (F := Ideal) x0 x1 x2 x3 x4) concatenates_S2000000x64_S2000000x10_S2000000x74_d1 (ix2 p j) rfl
    (ix2 p ⟨j.val, h⟩) (fun b => by match b with | ⟨0, _⟩ => rfl | ⟨1, _⟩ => rfl)

/-- From column 64 on it is the content half, 64 columns back. -/
theorem cat_right (p : Fin 2000000) (j : Fin 74) (h : ¬ j.val < 64) :
    val_main_v44 (F := Ideal) x0 x1 x2 x3 x4 (ix2 p j)
      = val_main_v43 (F := Ideal) x0 x1 x2 x3 x4 (ix2 p ⟨j.val - 64, by have := j.isLt; omega⟩) := by
  unfold val_main_v44
  exact concatenate_pair_apply_right (1 : Fin S2000000x74.rank) (val_main_v42 (F := Ideal) x0 x2 x4)
    (val_main_v43 (F := Ideal) x0 x1 x2 x3 x4) concatenates_S2000000x64_S2000000x10_S2000000x74_d1 (ix2 p j) rfl rfl
    (ix2 p ⟨j.val - 64, by have := j.isLt; omega⟩)
    (fun b hb => by
      match b with
      | ⟨0, _⟩ => rfl
      | ⟨1, _⟩ => exact absurd rfl hb)
    (by show (j.val - 64) + 64 = j.val; omega)

end Stages

/-- The result at an entry, from the argument arrays. -/
theorem ref_apply (x0 : S2000000x64.Idx → EReal) (x1 : S2000000x10.Idx → EReal) (x2 : S64.Idx → EReal)
    (x3 : S10.Idx → EReal) (x4 : S1.Idx → EReal) (i : S2000000x74.Idx) :
    Cert.ReferenceIdeal.ReadP.val_main_v44 (F := Ideal) x0 x1 x2 x3 x4 i
      = Terms.outR (fun p k => x0 (ix2 p k)) (fun p k => x1 (ix2 p k)) (fun k => x2 (ix1 k)) (fun k => x3 (ix1 k))
          (x4 (ix1 0)) (i 0) (i 1) := by
  obtain ⟨p, j, rfl⟩ : ∃ (p : Fin 2000000) (j : Fin 74), i = ix2 p j := ⟨i 0, i 1, eq_ix2 i⟩
  show _ = Terms.outR (fun p k => x0 (ix2 p k)) (fun p k => x1 (ix2 p k)) (fun k => x2 (ix1 k)) (fun k => x3 (ix1 k))
    (x4 (ix1 0)) p j
  unfold Terms.outR
  by_cases h : j.val < 64
  · rw [dif_pos h, cat_left x0 x1 x2 x3 x4 p j h, selA_apply]
  · rw [dif_neg h, cat_right x0 x1 x2 x3 x4 p j h, selM_apply]

end Cert.ReferenceIdeal.RefValue

end
-- ==== Proof.Bridge.lean ====
/-
  The two programs end with the same result array.

  Write `a`, `mm`, `q`, `qc`, `ge` for the five inputs read as coordinate functions.  The common result `G` is the
  whole-array spelling `Terms.outR` of them, entry by entry.

  * The tiled program's result buffer ends at what its second pass's write-backs leave: `Terms.outK` of the arrays the
    second pass finds, which are the inputs themselves, with the least distance and the scale the host made from the
    first pass's final running maximum and sum, which are `Terms.stats` of the inputs after the last tile.  On finite
    inputs — the precondition — that is `Terms.outR` (the two spellings agree).
  * The whole-array program's result is `Terms.outR` of its own arguments, which agree with the tiled program's.
-/
import proofs.«172311_j70351564308696_1_alg».proof.Defs
import proofs.«172311_j70351564308696_1_alg».proof.Proof.Gen.Kernel.Frame
import proofs.«172311_j70351564308696_1_alg».proof.Proof.RunValue
import proofs.«172311_j70351564308696_1_alg».proof.Proof.HostMid
import proofs.«172311_j70351564308696_1_alg».proof.Proof.Region0
import proofs.«172311_j70351564308696_1_alg».proof.Proof.Region1
import proofs.«172311_j70351564308696_1_alg».proof.Proof.Spec
import proofs.«172311_j70351564308696_1_alg».proof.Proof.Finite
import proofs.«172311_j70351564308696_1_alg».proof.Proof.RefRun
import proofs.«172311_j70351564308696_1_alg».proof.Proof.RefRead
import proofs.«172311_j70351564308696_1_alg».proof.Proof.RefValue

noncomputable section

open Idealize.ShloMosaic Idealize.ShloMosaic.TcCoe Idealize.SL.Sem Idealize.ShloMosaic.ValueIdx

namespace Cert.Bridge

open Cert.KernelIdeal Cert.KernelIdeal.Gen
open Cert.KernelIdeal.HostMid (at11 at1)

variable (m : (ℓ : Loc nD τ sig) → Buf (Elt Ideal) ℓ) (ρ : Dev nD → PrngReg)

/-! ## The inputs as coordinate functions, and the common result -/

abbrev aIn (c : Dev nD) : Fin 2000000 → Fin 64 → EReal :=
  fun p k => (m ((c : Thread nD τ).loc main_arg0) : S2000000x64.Idx → EReal) (ix2 p k)
abbrev mIn (c : Dev nD) : Fin 2000000 → Fin 10 → EReal :=
  fun p k => (m ((c : Thread nD τ).loc main_arg1) : S2000000x10.Idx → EReal) (ix2 p k)
abbrev qIn (c : Dev nD) : Fin 64 → EReal := fun k => (m ((c : Thread nD τ).loc main_arg2) : S64.Idx → EReal) (ix1 k)
abbrev qcIn (c : Dev nD) : Fin 10 → EReal := fun k => (m ((c : Thread nD τ).loc main_arg3) : S10.Idx → EReal) (ix1 k)
abbrev geIn (c : Dev nD) : EReal := (m ((c : Thread nD τ).loc main_arg4) : S1.Idx → EReal) (ix1 0)

/-- The result both programs end with. -/
def G (c : Dev nD) : S2000000x74.Idx → EReal :=
  fun i => Terms.outR (aIn m c) (mIn m c) (qIn m c) (qcIn m c) (geIn m c) (i 0) (i 1)

/-! ## What each pass finds, as the inputs -/

theorem r0_a (c : Dev nD) : Region0.aOf (V1 m ρ) c = aIn m c :=
  funext fun p => funext fun k => congrFun (HostMid.V1_arg0 m ρ c) (ix2 p k)

theorem r0_q (c : Dev nD) : Region0.qOf (V1 m ρ) c = qIn m c :=
  funext fun k => HostMid.V1_v0_apply m ρ c k

theorem r1_a (c : Dev nD) : Region1.aOf (V5 m ρ) c = aIn m c :=
  funext fun p => funext fun k => congrFun (HostMid.V5_arg0 m ρ c) (ix2 p k)

theorem r1_m (c : Dev nD) : Region1.mOf (V5 m ρ) c = mIn m c :=
  funext fun p => funext fun k => congrFun (HostMid.V5_arg1 m ρ c) (ix2 p k)

theorem r1_q (c : Dev nD) : Region1.qOf (V5 m ρ) c = qIn m c :=
  funext fun k => HostMid.V5_v0_apply m ρ c k

theorem r1_qc (c : Dev nD) : Region1.qcOf (V5 m ρ) c = qcIn m c :=
  funext fun k => HostMid.V5_v1_apply m ρ c k

/-- The first pass's running-maximum array, after the pass. -/
theorem stat_m (c : Dev nD) :
    at11 (W2 m ρ c (Proc.devRef .tc main_v2_0)) = (Terms.stats (aIn m c) (qIn m c) 79).1 := by
  rw [show W2 m ρ c (Proc.devRef .tc main_v2_0) = _ from (W2_arr m ρ c 2).trans (Region0.final0_m (V1 m ρ) c), r0_a, r0_q]

/-- The first pass's running-sum array, after the pass. -/
theorem stat_l (c : Dev nD) :
    at11 (W2 m ρ c (Proc.devRef .tc main_v2_1)) = (Terms.stats (aIn m c) (qIn m c) 79).2 := by
  rw [show W2 m ρ c (Proc.devRef .tc main_v2_1) = _ from (W2_arr m ρ c 3).trans (Region0.final0_l (V1 m ρ) c), r0_a, r0_q]

/-- The least distance the second pass reads. -/
theorem r1_least (c : Dev nD) : Region1.leastOf (V5 m ρ) c = Terms.leastK (aIn m c) (qIn m c) := by
  show at11 (V5 m ρ c main_v16) = _
  rw [HostMid.least_entry, stat_m]
  rfl

/-- The scale the second pass reads. -/
theorem r1_scale (c : Dev nD) : Region1.scaleOf (V5 m ρ) c = Terms.scaleK (aIn m c) (qIn m c) (geIn m c) := by
  show at11 (V5 m ρ c main_v17) = _
  rw [HostMid.scale_entry, stat_m, stat_l, HostMid.W2_arg4]
  rfl

/-! ## The tiled program's result -/

/-- Under the precondition the result buffer ends at `G`. -/
theorem kernel_result (hpre : Cert.Pre_KernelIdeal (hPre_finite_inputs := Cert.Pre_finite_inputs.Gen.facts) m) (c : Dev nD) :
    W6 m ρ c (Proc.devRef .tc main_v18) = G m c := by
  refine (W6_arr m ρ c 6).trans ((Region1.final1 (V5 m ρ) c).trans (funext fun i => ?_))
  rw [r1_a, r1_m, r1_q, r1_qc, r1_least, r1_scale]
  have hfin := Cert.Finite.finite_of_pre m hpre c
  exact Cert.Spec.out_eq (aIn m c) (mIn m c) (qIn m c) (qcIn m c) (geIn m c)
    (fun p k => hfin.1 (ix2 p k)) (fun k => hfin.2 (ix1 k)) (i 0) (i 1)

end Cert.Bridge

/-! ## The claims -/

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_r : Cert.frame_ReferenceIdeal := fun m ρ _ =>
  (θ_run Cert.ReferenceIdeal.defs _ _).mono (fun _ h c => (h c).2) (Cert.ReferenceIdeal.ValueP.run (F := Ideal) m ρ)

/-- At the ideal values the tiled program's result buffer ends at `G` of its inputs (the second pass's write-backs,
    read through both passes and the host operations between them) and the whole-array program's at `Terms.outR` of
    arguments that agree: one array. -/
theorem algebraic : Cert.algebraic_KernelIdeal_ReferenceIdeal := by
  intro m ρ m' ρ' hpre hagree
  refine ⟨fun c => Cert.Bridge.G m c, ?_, ?_⟩
  · exact (θ_run Cert.KernelIdeal.defs _ _).mono
      (fun _ h c => ⟨(h c).1.trans (Cert.Bridge.kernel_result m ρ hpre c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v44_eq, (hagree c).1, (hagree c).2.1, (hagree c).2.2.1, (hagree c).2.2.2.1,
      (hagree c).2.2.2.2]
    funext i
    rw [Cert.ReferenceIdeal.RefValue.ref_apply]
    rfl

end Cert.Proof.Claims

end
-- ==== Proof.lean ====
/-
  A memory of two million rows is pulled toward a query: each row moves by a weight proportional to
  `exp (-distance to the query)`, normalised over all rows, unless the least distance already reaches a threshold
  made from a running error, in which case nothing moves.

  The kernel does it in two passes over 80 tiles of 25000 rows.  The first pass carries a running maximum of minus
  the distance and a running sum of exponentials rescaled whenever the maximum moves; after the last tile these are
  the maximum over all rows and the sum of `exp (maximum-shifted logits)`.  The host turns them into two scalars: the
  least distance (minus the maximum) and one scale, the update rate times zero or one over the sum.  The second pass
  moves every row by `exp (least distance - distance)` times that scale.  The reference computes a minimum over the
  distances, a softmax of minus the distances, and a select.

  Over the extended reals and on finite inputs the two agree entry by entry: minus the maximum of the negated
  distances is their minimum, so both decide "nothing moves" alike; when nothing moves the kernel's scale is zero and
  the row stays; otherwise both weights are the product of the same exponential, the same reciprocal sum and the
  same rate.  The three frames are the generated ones, and the kernel's idealization is its own text read over the
  extended reals: nothing in it was rewritten.
-/
import proofs.«172311_j70351564308696_1_alg».proof.Defs
import proofs.«172311_j70351564308696_1_alg».proof.Proof.Gen.Kernel
import proofs.«172311_j70351564308696_1_alg».proof.Proof.Gen.Kernel.Skeleton
import proofs.«172311_j70351564308696_1_alg».proof.Proof.Gen.Kernel.Launch
import proofs.«172311_j70351564308696_1_alg».proof.Proof.Gen.Kernel.Points
import proofs.«172311_j70351564308696_1_alg».proof.Proof.Gen.Kernel.Frame
import proofs.«172311_j70351564308696_1_alg».proof.Proof.Gen.KernelIdeal
import proofs.«172311_j70351564308696_1_alg».proof.Proof.Gen.KernelIdeal.Skeleton
import proofs.«172311_j70351564308696_1_alg».proof.Proof.Gen.KernelIdeal.Launch
import proofs.«172311_j70351564308696_1_alg».proof.Proof.Gen.KernelIdeal.Points
import proofs.«172311_j70351564308696_1_alg».proof.Proof.Gen.KernelIdeal.Frame
import proofs.«172311_j70351564308696_1_alg».proof.Proof.Gen.ReferenceIdeal
import proofs.«172311_j70351564308696_1_alg».proof.Proof.Gen.Pre_finite_inputs
import proofs.«172311_j70351564308696_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_r, trivial, Claims.algebraic⟩

end Cert.Proof

end
